-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1250000 32) (main_arg2 : FVec F S64x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S100000 : Shape := ⟨1, ![100000]⟩
abbrev S1x1250000 : Shape := ⟨2, ![1, 1250000]⟩
abbrev S1250000 : Shape := ⟨1, ![1250000]⟩
abbrev S1350000 : Shape := ⟨1, ![1350000]⟩
abbrev S_ : Shape := ⟨0, ![]⟩
abbrev S1350000x1 : Shape := ⟨2, ![1350000, 1]⟩
abbrev S10000x64 : Shape := ⟨2, ![10000, 64]⟩
abbrev S1350000x64 : Shape := ⟨2, ![1350000, 64]⟩
abbrev S1x64 : Shape := ⟨2, ![1, 64]⟩

abbrev nBuf : Space → Nat
  | .hbm => 103
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1250000, .i32⟩
  | .hbm, ⟨10, _⟩ => ⟨S1250000, .i32⟩
  | .hbm, ⟨11, _⟩ => ⟨S1350000, .i32⟩
  | .hbm, ⟨12, _⟩ => ⟨S1x1250000, .i32⟩
  | .hbm, ⟨13, _⟩ => ⟨S1250000, .i32⟩
  | .hbm, ⟨14, _⟩ => ⟨S1350000, .i32⟩
  | .hbm, ⟨15, _⟩ => ⟨S_, .f32⟩
  | .hbm, ⟨16, _⟩ => ⟨S1350000, .f32⟩
  | .hbm, ⟨17, _⟩ => ⟨S_, .f32⟩
  | .hbm, ⟨18, _⟩ => ⟨S100000, .f32⟩
  | .hbm, ⟨19, _⟩ => ⟨S1350000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1350000, .i32⟩
  | .hbm, ⟨31, _⟩ => ⟨S1350000, .i1⟩
  | .hbm, ⟨32, _⟩ => ⟨S_, .i32⟩
  | .hbm, ⟨33, _⟩ => ⟨S1350000, .i32⟩
  | .hbm, ⟨34, _⟩ => ⟨S1350000, .i32⟩
  | .hbm, ⟨35, _⟩ => ⟨S1350000, .i32⟩
  | .hbm, ⟨36, _⟩ => ⟨S1350000x1, .i32⟩
  | .hbm, ⟨37, _⟩ => ⟨S1350000, .f32⟩
  | .hbm, ⟨38, _⟩ => ⟨S_, .i32⟩
  | .hbm, ⟨39, _⟩ => ⟨S1350000, .i32⟩
  | .hbm, ⟨40, _⟩ => ⟨S1350000, .i1⟩
  | .hbm, ⟨41, _⟩ => ⟨S_, .i32⟩
  | .hbm, ⟨42, _⟩ => ⟨S1350000, .i32⟩
  | .hbm, ⟨43, _⟩ => ⟨S1350000, .i32⟩
  | .hbm, ⟨44, _⟩ => ⟨S1350000, .i32⟩
  | .hbm, ⟨45, _⟩ => ⟨S1350000x1, .i32⟩
  | .hbm, ⟨46, _⟩ => ⟨S1350000, .f32⟩
  | .hbm, ⟨47, _⟩ => ⟨S1350000, .f32⟩
  | .hbm, ⟨48, _⟩ => ⟨S1350000x1, .f32⟩
  | .hbm, ⟨49, _⟩ => ⟨S100000x64, .f32⟩
  | .hbm, ⟨50, _⟩ => ⟨S_, .i32⟩
  | .hbm, ⟨51, _⟩ => ⟨S1350000, .i32⟩
  | .hbm, ⟨52, _⟩ => ⟨S1350000, .i1⟩
  | .hbm, ⟨53, _⟩ => ⟨S_, .i32⟩
  | .hbm, ⟨54, _⟩ => ⟨S1350000, .i32⟩
  | .hbm, ⟨55, _⟩ => ⟨S1350000, .i32⟩
  | .hbm, ⟨56, _⟩ => ⟨S1350000, .i32⟩
  | .hbm, ⟨57, _⟩ => ⟨S1350000x1, .i32⟩
  | .hbm, ⟨58, _⟩ => ⟨S1350000x64, .f32⟩
  | .hbm, ⟨59, _⟩ => ⟨S1350000x64, .f32⟩
  | .hbm, ⟨60, _⟩ => ⟨S1350000x64, .f32⟩
  | .hbm, ⟨61, _⟩ => ⟨S_, .f32⟩
  | .hbm, ⟨62, _⟩ => ⟨S100000x64, .f32⟩
  | .hbm, ⟨63, _⟩ => ⟨S1350000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .i32⟩
  | .hbm, ⟨69, _⟩ => ⟨S1350000, .i32⟩
  | .hbm, ⟨70, _⟩ => ⟨S1350000, .i1⟩
  | .hbm, ⟨71, _⟩ => ⟨S_, .i32⟩
  | .hbm, ⟨72, _⟩ => ⟨S1350000, .i32⟩
  | .hbm, ⟨73, _⟩ => ⟨S1350000, .i32⟩
  | .hbm, ⟨74, _⟩ => ⟨S1350000, .i32⟩
  | .hbm, ⟨75, _⟩ => ⟨S1350000x1, .i32⟩
  | .hbm, ⟨76, _⟩ => ⟨S1350000x64, .f32⟩
  | .hbm, ⟨77, _⟩ => ⟨S1350000x64, .f32⟩
  | .hbm, ⟨78, _⟩ => ⟨S1350000x64, .f32⟩
  | .hbm, ⟨79, _⟩ => ⟨S_, .f32⟩
  | .hbm, ⟨80, _⟩ => ⟨S100000x64, .f32⟩
  | .hbm, ⟨81, _⟩ => ⟨S1350000x1, .i32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S100000x64, .f32⟩
  | .hbm, ⟨86, _⟩ => ⟨S_, .i32⟩
  | .hbm, ⟨87, _⟩ => ⟨S1350000, .i32⟩
  | .hbm, ⟨88, _⟩ => ⟨S1350000, .i1⟩
  | .hbm, ⟨89, _⟩ => ⟨S_, .i32⟩
  | .hbm, ⟨90, _⟩ => ⟨S1350000, .i32⟩
  | .hbm, ⟨91, _⟩ => ⟨S1350000, .i32⟩
  | .hbm, ⟨92, _⟩ => ⟨S1350000, .i32⟩
  | .hbm, ⟨93, _⟩ => ⟨S1350000x1, .i32⟩
  | .hbm, ⟨94, _⟩ => ⟨S1350000x64, .f32⟩
  | .hbm, ⟨95, _⟩ => ⟨S1350000x64, .f32⟩
  | .hbm, ⟨96, _⟩ => ⟨S1350000x64, .f32⟩
  | .hbm, ⟨97, _⟩ => ⟨S_, .f32⟩
  | .hbm, ⟨98, _⟩ => ⟨S100000x64, .f32⟩
  | .hbm, ⟨99, _⟩ => ⟨S1350000x1, .i32⟩
  | .hbm, ⟨100, _⟩ => ⟨S100000x64, .f32⟩
  | .hbm, ⟨101, _⟩ => ⟨S1x64, .f32⟩
  | .hbm, ⟨102, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S1350000 : S_.BroadcastsInDim S1350000 (![] : Fin 0 → Fin S1350000.rank)
  bcast_S_S100000 : S_.BroadcastsInDim S100000 (![] : Fin 0 → Fin S100000.rank)
  bcast_S1350000_S1350000x1_0 : S1350000.BroadcastsInDim S1350000x1 (![0] : Fin 1 → Fin S1350000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1350000x1_S1350000x64_0_1 : S1350000x1.BroadcastsInDim S1350000x64 (![0, 1] : Fin 2 → Fin S1350000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  dot_S10000x64_S64x64_S10000x64_1_0_0_1_n_n_wf : DotDims.WF S10000x64 S64x64 S10000x64 [1] [0] [0] [1] [] []
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S100000 : Shape := ⟨1, ![100000]⟩
abbrev S1x1250000 : Shape := ⟨2, ![1, 1250000]⟩
abbrev S1250000 : Shape := ⟨1, ![1250000]⟩
abbrev S1350000 : Shape := ⟨1, ![1350000]⟩
abbrev S_ : Shape := ⟨0, ![]⟩
abbrev S1350000x1 : Shape := ⟨2, ![1350000, 1]⟩
abbrev S1350000x64 : Shape := ⟨2, ![1350000, 64]⟩
abbrev S1x64 : Shape := ⟨2, ![1, 64]⟩

abbrev nBuf : Space → Nat
  | .hbm => 112
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1250000, .i32⟩
  | .hbm, ⟨10, _⟩ => ⟨S1250000, .i32⟩
  | .hbm, ⟨11, _⟩ => ⟨S1350000, .i32⟩
  | .hbm, ⟨12, _⟩ => ⟨S1x1250000, .i32⟩
  | .hbm, ⟨13, _⟩ => ⟨S1250000, .i32⟩
  | .hbm, ⟨14, _⟩ => ⟨S1350000, .i32⟩
  | .hbm, ⟨15, _⟩ => ⟨S_, .f32⟩
  | .hbm, ⟨16, _⟩ => ⟨S1350000, .f32⟩
  | .hbm, ⟨17, _⟩ => ⟨S_, .f32⟩
  | .hbm, ⟨18, _⟩ => ⟨S100000, .f32⟩
  | .hbm, ⟨19, _⟩ => ⟨S1350000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1350000, .i32⟩
  | .hbm, ⟨31, _⟩ => ⟨S1350000, .i1⟩
  | .hbm, ⟨32, _⟩ => ⟨S_, .i32⟩
  | .hbm, ⟨33, _⟩ => ⟨S1350000, .i32⟩
  | .hbm, ⟨34, _⟩ => ⟨S1350000, .i32⟩
  | .hbm, ⟨35, _⟩ => ⟨S1350000, .i32⟩
  | .hbm, ⟨36, _⟩ => ⟨S1350000x1, .i32⟩
  | .hbm, ⟨37, _⟩ => ⟨S1350000, .f32⟩
  | .hbm, ⟨38, _⟩ => ⟨S_, .i32⟩
  | .hbm, ⟨39, _⟩ => ⟨S1350000, .i32⟩
  | .hbm, ⟨40, _⟩ => ⟨S1350000, .i1⟩
  | .hbm, ⟨41, _⟩ => ⟨S_, .i32⟩
  | .hbm, ⟨42, _⟩ => ⟨S1350000, .i32⟩
  | .hbm, ⟨43, _⟩ => ⟨S1350000, .i32⟩
  | .hbm, ⟨44, _⟩ => ⟨S1350000, .i32⟩
  | .hbm, ⟨45, _⟩ => ⟨S1350000x1, .i32⟩
  | .hbm, ⟨46, _⟩ => ⟨S1350000, .f32⟩
  | .hbm, ⟨47, _⟩ => ⟨S1350000, .f32⟩
  | .hbm, ⟨48, _⟩ => ⟨S1350000x1, .f32⟩
  | .hbm, ⟨49, _⟩ => ⟨S100000x64, .f32⟩
  | .hbm, ⟨50, _⟩ => ⟨S_, .i32⟩
  | .hbm, ⟨51, _⟩ => ⟨S1350000, .i32⟩
  | .hbm, ⟨52, _⟩ => ⟨S1350000, .i1⟩
  | .hbm, ⟨53, _⟩ => ⟨S_, .i32⟩
  | .hbm, ⟨54, _⟩ => ⟨S1350000, .i32⟩
  | .hbm, ⟨55, _⟩ => ⟨S1350000, .i32⟩
  | .hbm, ⟨56, _⟩ => ⟨S1350000, .i32⟩
  | .hbm, ⟨57, _⟩ => ⟨S1350000x1, .i32⟩
  | .hbm, ⟨58, _⟩ => ⟨S1350000x64, .f32⟩
  | .hbm, ⟨59, _⟩ => ⟨S1350000x64, .f32⟩
  | .hbm, ⟨60, _⟩ => ⟨S1350000x64, .f32⟩
  | .hbm, ⟨61, _⟩ => ⟨S_, .f32⟩
  | .hbm, ⟨62, _⟩ => ⟨S100000x64, .f32⟩
  | .hbm, ⟨63, _⟩ => ⟨S1350000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S1350000, .i32⟩
  | .hbm, ⟨74, _⟩ => ⟨S1350000, .i1⟩
  | .hbm, ⟨75, _⟩ => ⟨S_, .i32⟩
  | .hbm, ⟨76, _⟩ => ⟨S1350000, .i32⟩
  | .hbm, ⟨77, _⟩ => ⟨S1350000, .i32⟩
  | .hbm, ⟨78, _⟩ => ⟨S1350000, .i32⟩
  | .hbm, ⟨79, _⟩ => ⟨S1350000x1, .i32⟩
  | .hbm, ⟨80, _⟩ => ⟨S1350000x64, .f32⟩
  | .hbm, ⟨81, _⟩ => ⟨S1350000x64, .f32⟩
  | .hbm, ⟨82, _⟩ => ⟨S1350000x64, .f32⟩
  | .hbm, ⟨83, _⟩ => ⟨S_, .f32⟩
  | .hbm, ⟨84, _⟩ => ⟨S100000x64, .f32⟩
  | .hbm, ⟨85, _⟩ => ⟨S1350000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S_, .f32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S_, .i32⟩
  | .hbm, ⟨95, _⟩ => ⟨S1350000, .i32⟩
  | .hbm, ⟨96, _⟩ => ⟨S1350000, .i1⟩
  | .hbm, ⟨97, _⟩ => ⟨S_, .i32⟩
  | .hbm, ⟨98, _⟩ => ⟨S1350000, .i32⟩
  | .hbm, ⟨99, _⟩ => ⟨S1350000, .i32⟩
  | .hbm, ⟨100, _⟩ => ⟨S1350000, .i32⟩
  | .hbm, ⟨101, _⟩ => ⟨S1350000x1, .i32⟩
  | .hbm, ⟨102, _⟩ => ⟨S1350000x64, .f32⟩
  | .hbm, ⟨103, _⟩ => ⟨S1350000x64, .f32⟩
  | .hbm, ⟨104, _⟩ => ⟨S1350000x64, .f32⟩
  | .hbm, ⟨105, _⟩ => ⟨S_, .f32⟩
  | .hbm, ⟨106, _⟩ => ⟨S100000x64, .f32⟩
  | .hbm, ⟨107, _⟩ => ⟨S1350000x1, .i32⟩
  | .hbm, ⟨108, _⟩ => ⟨S100000x64, .f32⟩
  | .hbm, ⟨109, _⟩ => ⟨S1x64, .f32⟩
  | .hbm, ⟨110, _⟩ => ⟨S100000x64, .f32⟩
  | .hbm, ⟨111, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call2_cst : Ref sig .tc := ⟨.hbm, 90, rfl⟩
abbrev main_call2_v0 : Ref sig .tc := ⟨.hbm, 91, rfl⟩
abbrev main_v64 : Ref sig .tc := ⟨.hbm, 92, rfl⟩
abbrev main_v65 : Ref sig .tc := ⟨.hbm, 93, rfl⟩
abbrev main_c_12 : Ref sig .tc := ⟨.hbm, 94, rfl⟩
abbrev main_v66 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S1350000 : S_.BroadcastsInDim S1350000 (![] : Fin 0 → Fin S1350000.rank)
  bcast_S_S100000 : S_.BroadcastsInDim S100000 (![] : Fin 0 → Fin S100000.rank)
  bcast_S1350000_S1350000x1_0 : S1350000.BroadcastsInDim S1350000x1 (![0] : Fin 1 → Fin S1350000x1.rank)
  bcast_S1350000x1_S1350000x64_0_1 : S1350000x1.BroadcastsInDim S1350000x64 (![0, 1] : Fin 2 → Fin S1350000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  dot_S100000x64_S64x64_S100000x64_1_0_0_1_n_n_wf : DotDims.WF S100000x64 S64x64 S100000x64 [1] [0] [0] [1] [] []
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf

class Facts : Prop extends Facts₀ where

variable [Facts]
-- ==== Proof.LayerSpec.lean ====
/-
  One layer of the graph convolution, and the three-layer network, as whole-array functions on the extended reals.

  A layer multiplies the node features (100000 rows of 64) by a 64 × 64 weight matrix, sums the scaled messages per
  destination node (an operation on whole arrays that both programs perform with the same host operations; it enters
  here only as a parameter `agg`), adds the bias to every row and, in the first two layers, clamps the result at zero
  from below.  Written index by index: entry (p, q) of the product is the sum over k < 64 of x(p, k) · w(k, q); the
  bias step reads the bias at column q.
-/
import Idealize.ShloMosaic.PureOps.Ideal
import Idealize.ShloMosaic.Lib.ValueIdx

noncomputable section

namespace GraphConv

open Idealize.ShloMosaic Idealize.ShloMosaic.ValueIdx

/-- The node-feature array's shape: 100000 rows of 64 features. -/
abbrev Nodes : Shape := ⟨2, ![100000, 64]⟩
/-- A weight matrix's shape. -/
abbrev Weights : Shape := ⟨2, ![64, 64]⟩
/-- A bias held as one row of 64. -/
abbrev BiasRow : Shape := ⟨2, ![1, 64]⟩
/-- A bias as the program's argument holds it: 64 numbers. -/
abbrev Bias : Shape := ⟨1, ![64]⟩

/-- Rows times weights: entry (p, q) is the sum over k of x(p, k) · w(k, q). -/
def rowsTimes (x : Nodes.Idx → EReal) (w : Weights.Idx → EReal) : Nodes.Idx → EReal :=
  fun i => ∑ k : Fin 64, x (ix2 (n0 := 100000) (i 0) k) * w (ix2 (n1 := 64) k (i 1))

/-- The bias row added to every row. -/
def plusRow (a : Nodes.Idx → EReal) (b : BiasRow.Idx → EReal) : Nodes.Idx → EReal :=
  fun i => a i + b (ix2 (n0 := 1) (n1 := 64) 0 (i 1))

/-- The bias row added to every row, then clamped at zero from below. -/
def plusRowClamped (a : Nodes.Idx → EReal) (b : BiasRow.Idx → EReal) : Nodes.Idx → EReal :=
  fun i => max (a i + b (ix2 (n0 := 1) (n1 := 64) 0 (i 1))) 0

/-- A bias of 64 numbers laid out as one row. -/
def asRow (b : Bias.Idx → EReal) : BiasRow.Idx → EReal :=
  fun i => b (ix1 (n := 64) (i 1))

theorem rowsTimes_apply (x : Nodes.Idx → EReal) (w : Weights.Idx → EReal) (p : Fin 100000) (q : Fin 64) :
    rowsTimes x w (ix2 p q) = ∑ k : Fin 64, x (ix2 p k) * w (ix2 k q) := rfl

theorem plusRow_apply (a : Nodes.Idx → EReal) (b : BiasRow.Idx → EReal) (p : Fin 100000) (q : Fin 64) :
    plusRow a b (ix2 p q) = a (ix2 p q) + b (ix2 0 q) := rfl

theorem plusRowClamped_apply (a : Nodes.Idx → EReal) (b : BiasRow.Idx → EReal) (p : Fin 100000) (q : Fin 64) :
    plusRowClamped a b (ix2 p q) = max (a (ix2 p q) + b (ix2 0 q)) 0 := rfl

theorem asRow_apply (b : Bias.Idx → EReal) (q : Fin 64) : asRow b (ix2 0 q) = b (ix1 q) := rfl

/-- The three layers: product, per-node sum of messages (`agg`), bias, clamp; the last layer without the clamp. -/
def network (agg : (Nodes.Idx → EReal) → (Nodes.Idx → EReal))
    (x : Nodes.Idx → EReal) (w1 : Weights.Idx → EReal) (b1 : Bias.Idx → EReal)
    (w2 : Weights.Idx → EReal) (b2 : Bias.Idx → EReal) (w3 : Weights.Idx → EReal) (b3 : Bias.Idx → EReal) :
    Nodes.Idx → EReal :=
  plusRow (agg (rowsTimes
    (plusRowClamped (agg (rowsTimes
      (plusRowClamped (agg (rowsTimes x w1)) (asRow b1)) w2)) (asRow b2)) w3)) (asRow b3)

end GraphConv

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.Linear0.lean ====
/-
  A layer's linear step, as the pipeline leaves it in its result array.

  The pipeline walks the 100000 rows in ten blocks of 10000.  At block t the body multiplies rows
  10000·t … 10000·t + 9999 of the feature array by the whole 64 × 64 weight matrix (both operands pass through a
  change of float format, which is the identity on the extended reals, and the accumulator starts at zero), and
  writes the product back to the same rows of the result.  So entry (p, q) of the result is the sum over k of
  x(p, k) · w(k, q), whatever block p falls in, and the ten blocks cover every row: row p lies in block p / 10000.
-/
import proofs.«115759_j38654705664006_1_alg».proof.Proof.Gen.KernelIdeal.Frame
import proofs.«115759_j38654705664006_1_alg».proof.Proof.LibPlainDot
import proofs.«115759_j38654705664006_1_alg».proof.Proof.LayerSpec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Linear0

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The body's product at entry (p, q) of a block: the sum over k of the block's row p against the weights'
    column q. -/
theorem product_apply (x0 : Vec Ideal S10000x64 .f32) (x1 : Vec Ideal S64x64 .f32) (p : Fin 10000) (q : Fin 64) :
    k0_pay1 (F := Ideal) x0 x1 (ix2 p q) = ∑ k : Fin 64, x0 (ix2 p k) * x1 (ix2 k q) := by
  unfold k0_pay1
  simp only [matmul, shapeCast_self]
  rw [Ideal.matmul_constant_zero_apply]
  exact PlainDot.sum_eq dot_S10000x64_S64x64_S10000x64_1_0_0_1_n_n rfl rfl rfl rfl rfl rfl _ _ p q

/-- The index maps over the grid: the row-block index of the features and of the result is the point's number, the
    column-block index 0; the weights' block is always (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature array and the weight matrix as the region finds them, and their blocks at point t, each at its
    literal type. -/
abbrev features (c : Dev nD) : Vec Ideal S100000x64 .f32 := V c main_arg0
abbrev weights (c : Dev nD) : Vec Ideal S64x64 .f32 := V c main_arg2
abbrev featuresAt (c : Dev nD) (t : Fin cfg0.N) : Vec Ideal S10000x64 .f32 := iblk0 V c 0 t
abbrev weightsAt (c : Dev nD) (t : Fin cfg0.N) : Vec Ideal S64x64 .f32 := iblk0 V c 1 t

/-- Block t of the features is rows 10000·t … 10000·t + 9999 of the feature array. -/
theorem features_block (c : Dev nD) (t : Fin cfg0.N) (p : Fin 10000) (k : Fin 64) (i : S100000x64.Idx)
    (h0 : (i 0).val = 10000 * t.val + p.val) (h1 : (i 1).val = k.val) :
    featuresAt V c t (ix2 p k) = features V c i := by
  obtain ⟨e00, e01, -⟩ := index_facts t
  unfold featuresAt features iblk0
  rw [View.read_apply]
  show V c main_arg0 _ = V c main_arg0 _
  refine congrArg (V c main_arg0) ?_
  funext a
  apply Fin.ext
  match a with
  | ⟨0, _⟩ => show win0_0.index t 0 * 10000 + 1 * p.val = (i 0).val; rw [e00, h0]; omega
  | ⟨1, _⟩ => show win0_0.index t 1 * 64 + 1 * k.val = (i 1).val; rw [e01, h1]; omega

/-- Every point's block of the weights is the whole weight matrix. -/
theorem weights_block (c : Dev nD) (t : Fin cfg0.N) (k : Fin 64) (q : Fin 64) (i : S64x64.Idx)
    (h0 : (i 0).val = k.val) (h1 : (i 1).val = q.val) :
    weightsAt V c t (ix2 k q) = weights V c i := by
  obtain ⟨-, -, e10, e11, -⟩ := index_facts t
  unfold weightsAt weights iblk0
  rw [View.read_apply]
  show V c main_arg2 _ = V c main_arg2 _
  refine congrArg (V c main_arg2) ?_
  funext a
  apply Fin.ext
  match a with
  | ⟨0, _⟩ => show win0_1.index t 0 * 64 + 1 * k.val = (i 0).val; rw [e10, h0]; omega
  | ⟨1, _⟩ => show win0_1.index t 1 * 64 + 1 * q.val = (i 1).val; rw [e11, h1]; omega

/-- The block's product at (p, q) is the whole product at any index of the array in row 10000·t + p, column q. -/
theorem product_at (c : Dev nD) (t : Fin cfg0.N) (p : Fin 10000) (q : Fin 64) (i : S100000x64.Idx)
    (h0 : (i 0).val = 10000 * t.val + p.val) (h1 : (i 1).val = q.val) :
    ∑ k : Fin 64, featuresAt V c t (ix2 p k) * weightsAt V c t (ix2 k q)
      = GraphConv.rowsTimes (features V c) (weights V c) i := by
  show _ = ∑ k : Fin 64, features V c (ix2 (i 0) k) * weights V c (ix2 k (i 1))
  refine Finset.sum_congr rfl fun k _ => ?_
  rw [features_block V c t p k (ix2 (i 0) k) h0 rfl, weights_block V c t k q (ix2 k (i 1)) rfl h1]

/-- What point t writes back is block t of the whole product. -/
theorem flushed_eq (c : Dev nD) (t : Fin cfg0.N) :
    (dat0 V c).flushed 2 t = ((cfg0.win 2).blk t).view.read (Elt Ideal) (GraphConv.rowsTimes (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x64) zero_offsets, View.ld_unit_zero (S := S64x64) zero_offsets]
  obtain ⟨e00, e01, e10, e11, e20, e21⟩ := index_facts t
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (ix2 p q)
    = GraphConv.rowsTimes (V c main_arg0) (V c main_arg2) (((cfg0.win 2).blk t).view.emb (ix2 p q))
  refine (product_apply _ _ p q).trans ?_
  refine product_at V c t p q _ ?_ ?_
  · show win0_2.index t 0 * 10000 + 1 * p.val = _; rw [e20]; omega
  · show win0_2.index t 1 * 64 + 1 * q.val = _; rw [e21]; omega

/-- An index of the result array lies in point t's block iff each coordinate lies in the block's range. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v31).slice (win0_2.rect t)).set ↔ _
  rw [View.set_slice_whole, Rect.mem_set_unit]
  exact Iff.rfl

/-- Row r lies in block r / 10000, and every point writes its block back: the ten blocks cover the array. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  refine ⟨⟨(i 0).val / 10000, by rw [hN]; omega⟩, flush0_2 _, ?_⟩
  rw [mem_block]
  obtain ⟨-, -, -, -, e20, e21⟩ := index_facts ⟨(i 0).val / 10000, by rw [hN]; omega⟩
  intro a
  match a with
  | ⟨0, _⟩ =>
    show win0_2.index _ 0 * 10000 ≤ (i 0).val ∧ (i 0).val < win0_2.index _ 0 * 10000 + 10000
    rw [e20]; show (i 0).val / 10000 * 10000 ≤ (i 0).val ∧ (i 0).val < (i 0).val / 10000 * 10000 + 10000; omega
  | ⟨1, _⟩ =>
    show win0_2.index _ 1 * 64 ≤ (i 1).val ∧ (i 1).val < win0_2.index _ 1 * 64 + 64
    rw [e21]; omega

/-- The result array after the region: the whole product of the arrays the region found. -/
theorem final (c : Dev nD) :
    (dat0 (F := Ideal) V c).arrAt 2 cfg0.N = GraphConv.rowsTimes (V c main_arg0) (V c main_arg2) :=
  (dat0 V c).arrAt_eq_of_cover 2 _ (fun t _ => flushed_eq V c t) covered

end Cert.KernelIdeal.Linear0

end
-- ==== Proof.Linear2.lean ====
/-
  A layer's linear step, as the pipeline leaves it in its result array.

  The pipeline walks the 100000 rows in ten blocks of 10000.  At block t the body multiplies rows
  10000·t … 10000·t + 9999 of the feature array by the whole 64 × 64 weight matrix (both operands pass through a
  change of float format, which is the identity on the extended reals, and the accumulator starts at zero), and
  writes the product back to the same rows of the result.  So entry (p, q) of the result is the sum over k of
  x(p, k) · w(k, q), whatever block p falls in, and the ten blocks cover every row: row p lies in block p / 10000.
-/
import proofs.«115759_j38654705664006_1_alg».proof.Proof.Gen.KernelIdeal.Frame
import proofs.«115759_j38654705664006_1_alg».proof.Proof.LibPlainDot
import proofs.«115759_j38654705664006_1_alg».proof.Proof.LayerSpec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Linear2

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The body's product at entry (p, q) of a block: the sum over k of the block's row p against the weights'
    column q. -/
theorem product_apply (x0 : Vec Ideal S10000x64 .f32) (x1 : Vec Ideal S64x64 .f32) (p : Fin 10000) (q : Fin 64) :
    k2_pay1 (F := Ideal) x0 x1 (ix2 p q) = ∑ k : Fin 64, x0 (ix2 p k) * x1 (ix2 k q) := by
  unfold k2_pay1
  simp only [matmul, shapeCast_self]
  rw [Ideal.matmul_constant_zero_apply]
  exact PlainDot.sum_eq dot_S10000x64_S64x64_S10000x64_1_0_0_1_n_n rfl rfl rfl rfl rfl rfl _ _ p q

/-- The index maps over the grid: the row-block index of the features and of the result is the point's number, the
    column-block index 0; the weights' block is always (0, 0). -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The feature array and the weight matrix as the region finds them, and their blocks at point t, each at its
    literal type. -/
abbrev features (c : Dev nD) : Vec Ideal S100000x64 .f32 := V c main_v45
abbrev weights (c : Dev nD) : Vec Ideal S64x64 .f32 := V c main_arg4
abbrev featuresAt (c : Dev nD) (t : Fin cfg2.N) : Vec Ideal S10000x64 .f32 := iblk2 V c 0 t
abbrev weightsAt (c : Dev nD) (t : Fin cfg2.N) : Vec Ideal S64x64 .f32 := iblk2 V c 1 t

/-- Block t of the features is rows 10000·t … 10000·t + 9999 of the feature array. -/
theorem features_block (c : Dev nD) (t : Fin cfg2.N) (p : Fin 10000) (k : Fin 64) (i : S100000x64.Idx)
    (h0 : (i 0).val = 10000 * t.val + p.val) (h1 : (i 1).val = k.val) :
    featuresAt V c t (ix2 p k) = features V c i := by
  obtain ⟨e00, e01, -⟩ := index_facts t
  unfold featuresAt features iblk2
  rw [View.read_apply]
  show V c main_v45 _ = V c main_v45 _
  refine congrArg (V c main_v45) ?_
  funext a
  apply Fin.ext
  match a with
  | ⟨0, _⟩ => show win2_0.index t 0 * 10000 + 1 * p.val = (i 0).val; rw [e00, h0]; omega
  | ⟨1, _⟩ => show win2_0.index t 1 * 64 + 1 * k.val = (i 1).val; rw [e01, h1]; omega

/-- Every point's block of the weights is the whole weight matrix. -/
theorem weights_block (c : Dev nD) (t : Fin cfg2.N) (k : Fin 64) (q : Fin 64) (i : S64x64.Idx)
    (h0 : (i 0).val = k.val) (h1 : (i 1).val = q.val) :
    weightsAt V c t (ix2 k q) = weights V c i := by
  obtain ⟨-, -, e10, e11, -⟩ := index_facts t
  unfold weightsAt weights iblk2
  rw [View.read_apply]
  show V c main_arg4 _ = V c main_arg4 _
  refine congrArg (V c main_arg4) ?_
  funext a
  apply Fin.ext
  match a with
  | ⟨0, _⟩ => show win2_1.index t 0 * 64 + 1 * k.val = (i 0).val; rw [e10, h0]; omega
  | ⟨1, _⟩ => show win2_1.index t 1 * 64 + 1 * q.val = (i 1).val; rw [e11, h1]; omega

/-- The block's product at (p, q) is the whole product at any index of the array in row 10000·t + p, column q. -/
theorem product_at (c : Dev nD) (t : Fin cfg2.N) (p : Fin 10000) (q : Fin 64) (i : S100000x64.Idx)
    (h0 : (i 0).val = 10000 * t.val + p.val) (h1 : (i 1).val = q.val) :
    ∑ k : Fin 64, featuresAt V c t (ix2 p k) * weightsAt V c t (ix2 k q)
      = GraphConv.rowsTimes (features V c) (weights V c) i := by
  show _ = ∑ k : Fin 64, features V c (ix2 (i 0) k) * weights V c (ix2 k (i 1))
  refine Finset.sum_congr rfl fun k _ => ?_
  rw [features_block V c t p k (ix2 (i 0) k) h0 rfl, weights_block V c t k q (ix2 k (i 1)) rfl h1]

/-- What point t writes back is block t of the whole product. -/
theorem flushed_eq (c : Dev nD) (t : Fin cfg2.N) :
    (dat2 V c).flushed 2 t = ((cfg2.win 2).blk t).view.read (Elt Ideal) (GraphConv.rowsTimes (V c main_v45) (V c main_arg4)) := by
  show (cfg2.win 2).cut (grid2.coords t) ((dat2 V c).after 2 t) = _
  rw [after2_2]
  unfold out2_2
  rw [View.canon_unit_zero zero_offsets]
  simp only [View.ld_unit_zero (S := S10000x64) zero_offsets, View.ld_unit_zero (S := S64x64) zero_offsets]
  obtain ⟨e00, e01, e10, e11, e20, e21⟩ := index_facts t
  funext j
  obtain ⟨p, q, rfl⟩ : ∃ (p : Fin 10000) (q : Fin 64), j = ix2 p q := ⟨j 0, j 1, eq_ix2 j⟩
  show k2_pay1 (F := Ideal) (iblk2 V c 0 t) (iblk2 V c 1 t) (ix2 p q)
    = GraphConv.rowsTimes (V c main_v45) (V c main_arg4) (((cfg2.win 2).blk t).view.emb (ix2 p q))
  refine (product_apply _ _ p q).trans ?_
  refine product_at V c t p q _ ?_ ?_
  · show win2_2.index t 0 * 10000 + 1 * p.val = _; rw [e20]; omega
  · show win2_2.index t 1 * 64 + 1 * q.val = _; rw [e21]; omega

/-- An index of the result array lies in point t's block iff each coordinate lies in the block's range. -/
theorem mem_block (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v46).slice (win2_2.rect t)).set ↔ _
  rw [View.set_slice_whole, Rect.mem_set_unit]
  exact Iff.rfl

/-- Row r lies in block r / 10000, and every point writes its block back: the ten blocks cover the array. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  refine ⟨⟨(i 0).val / 10000, by rw [hN]; omega⟩, flush2_2 _, ?_⟩
  rw [mem_block]
  obtain ⟨-, -, -, -, e20, e21⟩ := index_facts ⟨(i 0).val / 10000, by rw [hN]; omega⟩
  intro a
  match a with
  | ⟨0, _⟩ =>
    show win2_2.index _ 0 * 10000 ≤ (i 0).val ∧ (i 0).val < win2_2.index _ 0 * 10000 + 10000
    rw [e20]; show (i 0).val / 10000 * 10000 ≤ (i 0).val ∧ (i 0).val < (i 0).val / 10000 * 10000 + 10000; omega
  | ⟨1, _⟩ =>
    show win2_2.index _ 1 * 64 ≤ (i 1).val ∧ (i 1).val < win2_2.index _ 1 * 64 + 64
    rw [e21]; omega

/-- The result array after the region: the whole product of the arrays the region found. -/
theorem final (c : Dev nD) :
    (dat2 (F := Ideal) V c).arrAt 2 cfg2.N = GraphConv.rowsTimes (V c main_v45) (V c main_arg4) :=
  (dat2 V c).arrAt_eq_of_cover 2 _ (fun t _ => flushed_eq V c t) covered

end Cert.KernelIdeal.Linear2

end
-- ==== Proof.Linear4.lean ====
/-
  A layer's linear step, as the pipeline leaves it in its result array.

  The pipeline walks the 100000 rows in ten blocks of 10000.  At block t the body multiplies rows
  10000·t … 10000·t + 9999 of the feature array by the whole 64 × 64 weight matrix (both operands pass through a
  change of float format, which is the identity on the extended reals, and the accumulator starts at zero), and
  writes the product back to the same rows of the result.  So entry (p, q) of the result is the sum over k of
  x(p, k) · w(k, q), whatever block p falls in, and the ten blocks cover every row: row p lies in block p / 10000.
-/
import proofs.«115759_j38654705664006_1_alg».proof.Proof.Gen.KernelIdeal.Frame
import proofs.«115759_j38654705664006_1_alg».proof.Proof.LibPlainDot
import proofs.«115759_j38654705664006_1_alg».proof.Proof.LayerSpec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Linear4

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The body's product at entry (p, q) of a block: the sum over k of the block's row p against the weights'
    column q. -/
theorem product_apply (x0 : Vec Ideal S10000x64 .f32) (x1 : Vec Ideal S64x64 .f32) (p : Fin 10000) (q : Fin 64) :
    k4_pay1 (F := Ideal) x0 x1 (ix2 p q) = ∑ k : Fin 64, x0 (ix2 p k) * x1 (ix2 k q) := by
  unfold k4_pay1
  simp only [matmul, shapeCast_self]
  rw [Ideal.matmul_constant_zero_apply]
  exact PlainDot.sum_eq dot_S10000x64_S64x64_S10000x64_1_0_0_1_n_n rfl rfl rfl rfl rfl rfl _ _ p q

/-- The index maps over the grid: the row-block index of the features and of the result is the point's number, the
    column-block index 0; the weights' block is always (0, 0). -/
theorem index_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The feature array and the weight matrix as the region finds them, and their blocks at point t, each at its
    literal type. -/
abbrev features (c : Dev nD) : Vec Ideal S100000x64 .f32 := V c main_v60
abbrev weights (c : Dev nD) : Vec Ideal S64x64 .f32 := V c main_arg6
abbrev featuresAt (c : Dev nD) (t : Fin cfg4.N) : Vec Ideal S10000x64 .f32 := iblk4 V c 0 t
abbrev weightsAt (c : Dev nD) (t : Fin cfg4.N) : Vec Ideal S64x64 .f32 := iblk4 V c 1 t

/-- Block t of the features is rows 10000·t … 10000·t + 9999 of the feature array. -/
theorem features_block (c : Dev nD) (t : Fin cfg4.N) (p : Fin 10000) (k : Fin 64) (i : S100000x64.Idx)
    (h0 : (i 0).val = 10000 * t.val + p.val) (h1 : (i 1).val = k.val) :
    featuresAt V c t (ix2 p k) = features V c i := by
  obtain ⟨e00, e01, -⟩ := index_facts t
  unfold featuresAt features iblk4
  rw [View.read_apply]
  show V c main_v60 _ = V c main_v60 _
  refine congrArg (V c main_v60) ?_
  funext a
  apply Fin.ext
  match a with
  | ⟨0, _⟩ => show win4_0.index t 0 * 10000 + 1 * p.val = (i 0).val; rw [e00, h0]; omega
  | ⟨1, _⟩ => show win4_0.index t 1 * 64 + 1 * k.val = (i 1).val; rw [e01, h1]; omega

/-- Every point's block of the weights is the whole weight matrix. -/
theorem weights_block (c : Dev nD) (t : Fin cfg4.N) (k : Fin 64) (q : Fin 64) (i : S64x64.Idx)
    (h0 : (i 0).val = k.val) (h1 : (i 1).val = q.val) :
    weightsAt V c t (ix2 k q) = weights V c i := by
  obtain ⟨-, -, e10, e11, -⟩ := index_facts t
  unfold weightsAt weights iblk4
  rw [View.read_apply]
  show V c main_arg6 _ = V c main_arg6 _
  refine congrArg (V c main_arg6) ?_
  funext a
  apply Fin.ext
  match a with
  | ⟨0, _⟩ => show win4_1.index t 0 * 64 + 1 * k.val = (i 0).val; rw [e10, h0]; omega
  | ⟨1, _⟩ => show win4_1.index t 1 * 64 + 1 * q.val = (i 1).val; rw [e11, h1]; omega

/-- The block's product at (p, q) is the whole product at any index of the array in row 10000·t + p, column q. -/
theorem product_at (c : Dev nD) (t : Fin cfg4.N) (p : Fin 10000) (q : Fin 64) (i : S100000x64.Idx)
    (h0 : (i 0).val = 10000 * t.val + p.val) (h1 : (i 1).val = q.val) :
    ∑ k : Fin 64, featuresAt V c t (ix2 p k) * weightsAt V c t (ix2 k q)
      = GraphConv.rowsTimes (features V c) (weights V c) i := by
  show _ = ∑ k : Fin 64, features V c (ix2 (i 0) k) * weights V c (ix2 k (i 1))
  refine Finset.sum_congr rfl fun k _ => ?_
  rw [features_block V c t p k (ix2 (i 0) k) h0 rfl, weights_block V c t k q (ix2 k (i 1)) rfl h1]

/-- What point t writes back is block t of the whole product. -/
theorem flushed_eq (c : Dev nD) (t : Fin cfg4.N) :
    (dat4 V c).flushed 2 t = ((cfg4.win 2).blk t).view.read (Elt Ideal) (GraphConv.rowsTimes (V c main_v60) (V c main_arg6)) := by
  show (cfg4.win 2).cut (grid4.coords t) ((dat4 V c).after 2 t) = _
  rw [after4_2]
  unfold out4_2
  rw [View.canon_unit_zero zero_offsets]
  simp only [View.ld_unit_zero (S := S10000x64) zero_offsets, View.ld_unit_zero (S := S64x64) zero_offsets]
  obtain ⟨e00, e01, e10, e11, e20, e21⟩ := index_facts t
  funext j
  obtain ⟨p, q, rfl⟩ : ∃ (p : Fin 10000) (q : Fin 64), j = ix2 p q := ⟨j 0, j 1, eq_ix2 j⟩
  show k4_pay1 (F := Ideal) (iblk4 V c 0 t) (iblk4 V c 1 t) (ix2 p q)
    = GraphConv.rowsTimes (V c main_v60) (V c main_arg6) (((cfg4.win 2).blk t).view.emb (ix2 p q))
  refine (product_apply _ _ p q).trans ?_
  refine product_at V c t p q _ ?_ ?_
  · show win4_2.index t 0 * 10000 + 1 * p.val = _; rw [e20]; omega
  · show win4_2.index t 1 * 64 + 1 * q.val = _; rw [e21]; omega

/-- An index of the result array lies in point t's block iff each coordinate lies in the block's range. -/
theorem mem_block (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v61).slice (win4_2.rect t)).set ↔ _
  rw [View.set_slice_whole, Rect.mem_set_unit]
  exact Iff.rfl

/-- Row r lies in block r / 10000, and every point writes its block back: the ten blocks cover the array. -/
theorem covered (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 10 := N_4
  refine ⟨⟨(i 0).val / 10000, by rw [hN]; omega⟩, flush4_2 _, ?_⟩
  rw [mem_block]
  obtain ⟨-, -, -, -, e20, e21⟩ := index_facts ⟨(i 0).val / 10000, by rw [hN]; omega⟩
  intro a
  match a with
  | ⟨0, _⟩ =>
    show win4_2.index _ 0 * 10000 ≤ (i 0).val ∧ (i 0).val < win4_2.index _ 0 * 10000 + 10000
    rw [e20]; show (i 0).val / 10000 * 10000 ≤ (i 0).val ∧ (i 0).val < (i 0).val / 10000 * 10000 + 10000; omega
  | ⟨1, _⟩ =>
    show win4_2.index _ 1 * 64 ≤ (i 1).val ∧ (i 1).val < win4_2.index _ 1 * 64 + 64
    rw [e21]; omega

/-- The result array after the region: the whole product of the arrays the region found. -/
theorem final (c : Dev nD) :
    (dat4 (F := Ideal) V c).arrAt 2 cfg4.N = GraphConv.rowsTimes (V c main_v60) (V c main_arg6) :=
  (dat4 V c).arrAt_eq_of_cover 2 _ (fun t _ => flushed_eq V c t) covered

end Cert.KernelIdeal.Linear4

end
-- ==== Proof.Bias1.lean ====
/-
  The bias step of layer 1, as the pipeline leaves it in its result array.

  The pipeline walks the 100000 rows in ten blocks of 10000.  At block t the body takes rows 10000·t … 10000·t + 9999
  of its input and adds the one bias row of 64 numbers to every one of them, then clamps each entry at zero from
  below; it writes the block back to the same rows of the result.  So entry (p, q) of the result is
  max(a(p, q) + b(0, q), 0), whatever block p falls in, and the ten blocks cover every row: row p lies in block
  p / 10000.
-/
import proofs.«115759_j38654705664006_1_alg».proof.Proof.Gen.KernelIdeal.Frame
import proofs.«115759_j38654705664006_1_alg».proof.Proof.LayerSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Bias1

open Cert.KernelIdeal Cert.KernelIdeal.Gen

variable (V : (c : Dev nD) → (b : Ref sig .tc) → Buf (Elt Ideal) ((c : Thread nD τ).loc b))

/-- The offsets of a whole-buffer access are all zero. -/
theorem zero_offsets : (![0, 0] : Fin 2 → Nat) = fun _ => 0 := funext fun a => by fin_cases a <;> rfl

/-- The body's result at entry (p, q) of a block: the block's entry plus the bias at column q, clamped at zero
    from below (the cast to the same shape is the identity, the one bias row is repeated down the rows, and the
    zero word is the number 0). -/
theorem clamped_sum_apply (x0 : Vec Ideal S10000x64 .f32) (x1 : Vec Ideal S1x64 .f32) (p : Fin 10000) (q : Fin 64) :
    k1_pay1 (F := Ideal) x0 x1 (ix2 p q) = max (x0 (ix2 p q) + x1 (ix2 0 q)) 0 := by
  unfold k1_pay1
  show max (shapeCast S10000x64 x0 shapeCasts_S10000x64_S10000x64 (ix2 p q)
      + broadcastTo S10000x64 (shapeCast S1x64 x1 shapeCasts_S1x64_S1x64) broadcasts_S1x64_S10000x64 (ix2 p q))
      (Ideal.ofBits .f32 0x00000000#32) = _
  rw [shapeCast_self, shapeCast_self, broadcastTo_1b_ab_apply, Ideal.ofBits_zero_f32]

/-- The index maps over the grid: the row-block index of the input rows and of the result is the point's number,
    the column-block index 0; the bias row's block is always (0, 0). -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, q) of the input block at point t is entry (10000·t + p, q) of the input array. -/
theorem rows_block_apply (c : Dev nD) (t : Fin cfg1.N) (p : Fin 10000) (q : Fin 64) (k : Fin 100000)
    (hk : k.val = 10000 * t.val + p.val) :
    (iblk1 V c 0 t : Vec Ideal S10000x64 .f32) (ix2 p q) = V c main_v43 (ix2 k q) := by
  obtain ⟨e0, e1, -⟩ := index_facts t
  unfold iblk1
  rw [View.read_apply]
  show V c main_v43 _ = V c main_v43 _
  congr 1
  funext a
  apply Fin.ext
  match a with
  | ⟨0, _⟩ => show win1_0.index t (0 : Fin 2) * 10000 + 1 * p.val = k.val; rw [e0, hk]; omega
  | ⟨1, _⟩ => show win1_0.index t (1 : Fin 2) * 64 + 1 * q.val = q.val; rw [e1]; omega

/-- Entry (0, q) of the bias block at any point is entry (0, q) of the bias row. -/
theorem bias_block_apply (c : Dev nD) (t : Fin cfg1.N) (q : Fin 64) :
    (iblk1 V c 1 t : Vec Ideal S1x64 .f32) (ix2 0 q) = V c main_v44 (ix2 0 q) := by
  obtain ⟨-, -, e2, e3, -⟩ := index_facts t
  unfold iblk1
  rw [View.read_apply]
  show V c main_v44 _ = V c main_v44 _
  congr 1
  funext a
  apply Fin.ext
  match a with
  | ⟨0, _⟩ => show win1_1.index t (0 : Fin 2) * 1 + 1 * 0 = 0; rw [e2]
  | ⟨1, _⟩ => show win1_1.index t (1 : Fin 2) * 64 + 1 * q.val = q.val; rw [e3]; omega

/-- Entry (p, q) of the result block at point t sits at entry (10000·t + p, q) of the result array. -/
theorem result_block_index (t : Fin cfg1.N) (p : Fin 10000) (q : Fin 64) (k : Fin 100000)
    (hk : k.val = 10000 * t.val + p.val) :
    ((cfg1.win 2).blk t).view.emb (ix2 p q) = ix2 k q := by
  obtain ⟨-, -, -, -, e4, e5⟩ := index_facts t
  funext a
  apply Fin.ext
  match a with
  | ⟨0, _⟩ => show win1_2.index t (0 : Fin 2) * 10000 + 1 * p.val = k.val; rw [e4, hk]; omega
  | ⟨1, _⟩ => show win1_2.index t (1 : Fin 2) * 64 + 1 * q.val = q.val; rw [e5]; omega

/-- What point t writes back is block t of the whole-array function: rows 10000·t … 10000·t + 9999 of the input
    plus the bias row, clamped. -/
theorem flushed_eq (c : Dev nD) (t : Fin cfg1.N) :
    (dat1 V c).flushed 2 t
      = ((cfg1.win 2).blk t).view.read (Elt Ideal) (GraphConv.plusRowClamped (V c main_v43) (V c main_v44)) := by
  show (cfg1.win 2).cut (grid1.coords t) ((dat1 V c).after 2 t) = _
  rw [after1_2]
  unfold out1_2
  rw [View.canon_unit_zero zero_offsets]
  simp only [View.ld_unit_zero (S := S10000x64) zero_offsets, View.ld_unit_zero (S := S1x64) zero_offsets]
  funext j
  obtain ⟨p, q, rfl⟩ : ∃ (p : Fin 10000) (q : Fin 64), j = ix2 p q := ⟨j 0, j 1, eq_ix2 j⟩
  have hN : cfg1.N = 10 := N_1
  have ht : t.val < 10 := by have := t.isLt; omega
  obtain ⟨k, hk⟩ : ∃ k : Fin 100000, k.val = 10000 * t.val + p.val := ⟨⟨10000 * t.val + p.val, by omega⟩, rfl⟩
  show k1_pay1 (F := Ideal) (iblk1 V c 0 t) (iblk1 V c 1 t) (ix2 p q)
    = GraphConv.plusRowClamped (V c main_v43) (V c main_v44) (((cfg1.win 2).blk t).view.emb (ix2 p q))
  rw [result_block_index t p q k hk, GraphConv.plusRowClamped_apply]
  refine (clamped_sum_apply (iblk1 V c 0 t) (iblk1 V c 1 t) p q).trans ?_
  rw [rows_block_apply V c t p q k hk, bias_block_apply V c t q]

/-- An index of the result array is in point t's block iff each coordinate is in the block's range on its axis. -/
theorem mem_block (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v45).slice (win1_2.rect t)).set ↔ _
  rw [View.set_slice_whole, Rect.mem_set_unit]
  exact Iff.rfl

/-- The ten blocks cover the array: row r lies in block r / 10000, and every point writes its block back. -/
theorem cover (i : S100000x64.Idx) :
    ∃ t : Fin cfg1.N, (cfg1.win 2).flush t = true ∧ i ∈ ((cfg1.win 2).blk t).view.set := by
  have hN : cfg1.N = 10 := N_1
  have hi0 : (i 0).val < 100000 := (i 0).isLt
  have hi1 : (i 1).val < 64 := (i 1).isLt
  obtain ⟨t, ht⟩ : ∃ t : Fin cfg1.N, t.val = (i 0).val / 10000 := ⟨⟨(i 0).val / 10000, by omega⟩, rfl⟩
  obtain ⟨-, -, -, -, e4, e5⟩ := index_facts t
  refine ⟨t, flush1_2 t, ?_⟩
  rw [mem_block]
  intro a
  match a with
  | ⟨0, _⟩ =>
    show win1_2.index t (0 : Fin 2) * 10000 ≤ (i 0).val ∧ (i 0).val < win1_2.index t (0 : Fin 2) * 10000 + 10000
    rw [e4, ht]; omega
  | ⟨1, _⟩ =>
    show win1_2.index t (1 : Fin 2) * 64 ≤ (i 1).val ∧ (i 1).val < win1_2.index t (1 : Fin 2) * 64 + 64
    rw [e5]; omega

/-- So the result array ends holding the input rows plus the bias row, clamped at zero from below. -/
theorem final (c : Dev nD) :
    (dat1 (F := Ideal) V c).arrAt 2 cfg1.N = GraphConv.plusRowClamped (V c main_v43) (V c main_v44) :=
  (dat1 V c).arrAt_eq_of_cover 2 _ (fun t _ => flushed_eq V c t) cover

end Cert.KernelIdeal.Bias1

end
-- ==== Proof.Bias3.lean ====
/-
  The bias step of layer 2, as the pipeline leaves it in its result array.

  The pipeline walks the 100000 rows in ten blocks of 10000.  At block t the body takes rows 10000·t … 10000·t + 9999
  of its input and adds the one bias row of 64 numbers to every one of them, then clamps each entry at zero from
  below; it writes the block back to the same rows of the result.  So entry (p, q) of the result is
  max(a(p, q) + b(0, q), 0), whatever block p falls in, and the ten blocks cover every row: row p lies in block
  p / 10000.
-/
import proofs.«115759_j38654705664006_1_alg».proof.Proof.Gen.KernelIdeal.Frame
import proofs.«115759_j38654705664006_1_alg».proof.Proof.LayerSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Bias3

open Cert.KernelIdeal Cert.KernelIdeal.Gen

variable (V : (c : Dev nD) → (b : Ref sig .tc) → Buf (Elt Ideal) ((c : Thread nD τ).loc b))

/-- The offsets of a whole-buffer access are all zero. -/
theorem zero_offsets : (![0, 0] : Fin 2 → Nat) = fun _ => 0 := funext fun a => by fin_cases a <;> rfl

/-- The body's result at entry (p, q) of a block: the block's entry plus the bias at column q, clamped at zero
    from below (the cast to the same shape is the identity, the one bias row is repeated down the rows, and the
    zero word is the number 0). -/
theorem clamped_sum_apply (x0 : Vec Ideal S10000x64 .f32) (x1 : Vec Ideal S1x64 .f32) (p : Fin 10000) (q : Fin 64) :
    k3_pay1 (F := Ideal) x0 x1 (ix2 p q) = max (x0 (ix2 p q) + x1 (ix2 0 q)) 0 := by
  unfold k3_pay1
  show max (shapeCast S10000x64 x0 shapeCasts_S10000x64_S10000x64 (ix2 p q)
      + broadcastTo S10000x64 (shapeCast S1x64 x1 shapeCasts_S1x64_S1x64) broadcasts_S1x64_S10000x64 (ix2 p q))
      (Ideal.ofBits .f32 0x00000000#32) = _
  rw [shapeCast_self, shapeCast_self, broadcastTo_1b_ab_apply, Ideal.ofBits_zero_f32]

/-- The index maps over the grid: the row-block index of the input rows and of the result is the point's number,
    the column-block index 0; the bias row's block is always (0, 0). -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Entry (p, q) of the input block at point t is entry (10000·t + p, q) of the input array. -/
theorem rows_block_apply (c : Dev nD) (t : Fin cfg3.N) (p : Fin 10000) (q : Fin 64) (k : Fin 100000)
    (hk : k.val = 10000 * t.val + p.val) :
    (iblk3 V c 0 t : Vec Ideal S10000x64 .f32) (ix2 p q) = V c main_v58 (ix2 k q) := by
  obtain ⟨e0, e1, -⟩ := index_facts t
  unfold iblk3
  rw [View.read_apply]
  show V c main_v58 _ = V c main_v58 _
  congr 1
  funext a
  apply Fin.ext
  match a with
  | ⟨0, _⟩ => show win3_0.index t (0 : Fin 2) * 10000 + 1 * p.val = k.val; rw [e0, hk]; omega
  | ⟨1, _⟩ => show win3_0.index t (1 : Fin 2) * 64 + 1 * q.val = q.val; rw [e1]; omega

/-- Entry (0, q) of the bias block at any point is entry (0, q) of the bias row. -/
theorem bias_block_apply (c : Dev nD) (t : Fin cfg3.N) (q : Fin 64) :
    (iblk3 V c 1 t : Vec Ideal S1x64 .f32) (ix2 0 q) = V c main_v59 (ix2 0 q) := by
  obtain ⟨-, -, e2, e3, -⟩ := index_facts t
  unfold iblk3
  rw [View.read_apply]
  show V c main_v59 _ = V c main_v59 _
  congr 1
  funext a
  apply Fin.ext
  match a with
  | ⟨0, _⟩ => show win3_1.index t (0 : Fin 2) * 1 + 1 * 0 = 0; rw [e2]
  | ⟨1, _⟩ => show win3_1.index t (1 : Fin 2) * 64 + 1 * q.val = q.val; rw [e3]; omega

/-- Entry (p, q) of the result block at point t sits at entry (10000·t + p, q) of the result array. -/
theorem result_block_index (t : Fin cfg3.N) (p : Fin 10000) (q : Fin 64) (k : Fin 100000)
    (hk : k.val = 10000 * t.val + p.val) :
    ((cfg3.win 2).blk t).view.emb (ix2 p q) = ix2 k q := by
  obtain ⟨-, -, -, -, e4, e5⟩ := index_facts t
  funext a
  apply Fin.ext
  match a with
  | ⟨0, _⟩ => show win3_2.index t (0 : Fin 2) * 10000 + 1 * p.val = k.val; rw [e4, hk]; omega
  | ⟨1, _⟩ => show win3_2.index t (1 : Fin 2) * 64 + 1 * q.val = q.val; rw [e5]; omega

/-- What point t writes back is block t of the whole-array function: rows 10000·t … 10000·t + 9999 of the input
    plus the bias row, clamped. -/
theorem flushed_eq (c : Dev nD) (t : Fin cfg3.N) :
    (dat3 V c).flushed 2 t
      = ((cfg3.win 2).blk t).view.read (Elt Ideal) (GraphConv.plusRowClamped (V c main_v58) (V c main_v59)) := by
  show (cfg3.win 2).cut (grid3.coords t) ((dat3 V c).after 2 t) = _
  rw [after3_2]
  unfold out3_2
  rw [View.canon_unit_zero zero_offsets]
  simp only [View.ld_unit_zero (S := S10000x64) zero_offsets, View.ld_unit_zero (S := S1x64) zero_offsets]
  funext j
  obtain ⟨p, q, rfl⟩ : ∃ (p : Fin 10000) (q : Fin 64), j = ix2 p q := ⟨j 0, j 1, eq_ix2 j⟩
  have hN : cfg3.N = 10 := N_3
  have ht : t.val < 10 := by have := t.isLt; omega
  obtain ⟨k, hk⟩ : ∃ k : Fin 100000, k.val = 10000 * t.val + p.val := ⟨⟨10000 * t.val + p.val, by omega⟩, rfl⟩
  show k3_pay1 (F := Ideal) (iblk3 V c 0 t) (iblk3 V c 1 t) (ix2 p q)
    = GraphConv.plusRowClamped (V c main_v58) (V c main_v59) (((cfg3.win 2).blk t).view.emb (ix2 p q))
  rw [result_block_index t p q k hk, GraphConv.plusRowClamped_apply]
  refine (clamped_sum_apply (iblk3 V c 0 t) (iblk3 V c 1 t) p q).trans ?_
  rw [rows_block_apply V c t p q k hk, bias_block_apply V c t q]

/-- An index of the result array is in point t's block iff each coordinate is in the block's range on its axis. -/
theorem mem_block (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v60).slice (win3_2.rect t)).set ↔ _
  rw [View.set_slice_whole, Rect.mem_set_unit]
  exact Iff.rfl

/-- The ten blocks cover the array: row r lies in block r / 10000, and every point writes its block back. -/
theorem cover (i : S100000x64.Idx) :
    ∃ t : Fin cfg3.N, (cfg3.win 2).flush t = true ∧ i ∈ ((cfg3.win 2).blk t).view.set := by
  have hN : cfg3.N = 10 := N_3
  have hi0 : (i 0).val < 100000 := (i 0).isLt
  have hi1 : (i 1).val < 64 := (i 1).isLt
  obtain ⟨t, ht⟩ : ∃ t : Fin cfg3.N, t.val = (i 0).val / 10000 := ⟨⟨(i 0).val / 10000, by omega⟩, rfl⟩
  obtain ⟨-, -, -, -, e4, e5⟩ := index_facts t
  refine ⟨t, flush3_2 t, ?_⟩
  rw [mem_block]
  intro a
  match a with
  | ⟨0, _⟩ =>
    show win3_2.index t (0 : Fin 2) * 10000 ≤ (i 0).val ∧ (i 0).val < win3_2.index t (0 : Fin 2) * 10000 + 10000
    rw [e4, ht]; omega
  | ⟨1, _⟩ =>
    show win3_2.index t (1 : Fin 2) * 64 ≤ (i 1).val ∧ (i 1).val < win3_2.index t (1 : Fin 2) * 64 + 64
    rw [e5]; omega

/-- So the result array ends holding the input rows plus the bias row, clamped at zero from below. -/
theorem final (c : Dev nD) :
    (dat3 (F := Ideal) V c).arrAt 2 cfg3.N = GraphConv.plusRowClamped (V c main_v58) (V c main_v59) :=
  (dat3 V c).arrAt_eq_of_cover 2 _ (fun t _ => flushed_eq V c t) cover

end Cert.KernelIdeal.Bias3

end
-- ==== Proof.Bias5.lean ====
/-
  The bias step of layer 3, as the pipeline leaves it in its result array.

  The pipeline walks the 100000 rows in ten blocks of 10000.  At block t the body takes rows 10000·t … 10000·t + 9999
  of its input and adds the one bias row of 64 numbers to every one of them; it writes the block back to the same
  rows of the result.  So entry (p, q) of the result is a(p, q) + b(0, q), whatever block p falls in, and the ten
  blocks cover every row: row p lies in block p / 10000.
-/
import proofs.«115759_j38654705664006_1_alg».proof.Proof.Gen.KernelIdeal.Frame
import proofs.«115759_j38654705664006_1_alg».proof.Proof.LayerSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Bias5

open Cert.KernelIdeal Cert.KernelIdeal.Gen

variable (V : (c : Dev nD) → (b : Ref sig .tc) → Buf (Elt Ideal) ((c : Thread nD τ).loc b))

/-- The offsets of a whole-buffer access are all zero. -/
theorem zero_offsets : (![0, 0] : Fin 2 → Nat) = fun _ => 0 := funext fun a => by fin_cases a <;> rfl

/-- The body's result at entry (p, q) of a block: the block's entry plus the bias at column q (the cast to the
    same shape is the identity, and the one bias row is repeated down the rows). -/
theorem sum_apply (x0 : Vec Ideal S10000x64 .f32) (x1 : Vec Ideal S1x64 .f32) (p : Fin 10000) (q : Fin 64) :
    k5_pay1 (F := Ideal) x0 x1 (ix2 p q) = x0 (ix2 p q) + x1 (ix2 0 q) := by
  unfold k5_pay1
  show shapeCast S10000x64 x0 shapeCasts_S10000x64_S10000x64 (ix2 p q)
      + broadcastTo S10000x64 (shapeCast S1x64 x1 shapeCasts_S1x64_S1x64) broadcasts_S1x64_S10000x64 (ix2 p q) = _
  rw [shapeCast_self, shapeCast_self, broadcastTo_1b_ab_apply]

/-- The index maps over the grid: the row-block index of the input rows and of the result is the point's number,
    the column-block index 0; the bias row's block is always (0, 0). -/
theorem index_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Entry (p, q) of the input block at point t is entry (10000·t + p, q) of the input array. -/
theorem rows_block_apply (c : Dev nD) (t : Fin cfg5.N) (p : Fin 10000) (q : Fin 64) (k : Fin 100000)
    (hk : k.val = 10000 * t.val + p.val) :
    (iblk5 V c 0 t : Vec Ideal S10000x64 .f32) (ix2 p q) = V c main_v73 (ix2 k q) := by
  obtain ⟨e0, e1, -⟩ := index_facts t
  unfold iblk5
  rw [View.read_apply]
  show V c main_v73 _ = V c main_v73 _
  congr 1
  funext a
  apply Fin.ext
  match a with
  | ⟨0, _⟩ => show win5_0.index t (0 : Fin 2) * 10000 + 1 * p.val = k.val; rw [e0, hk]; omega
  | ⟨1, _⟩ => show win5_0.index t (1 : Fin 2) * 64 + 1 * q.val = q.val; rw [e1]; omega

/-- Entry (0, q) of the bias block at any point is entry (0, q) of the bias row. -/
theorem bias_block_apply (c : Dev nD) (t : Fin cfg5.N) (q : Fin 64) :
    (iblk5 V c 1 t : Vec Ideal S1x64 .f32) (ix2 0 q) = V c main_v74 (ix2 0 q) := by
  obtain ⟨-, -, e2, e3, -⟩ := index_facts t
  unfold iblk5
  rw [View.read_apply]
  show V c main_v74 _ = V c main_v74 _
  congr 1
  funext a
  apply Fin.ext
  match a with
  | ⟨0, _⟩ => show win5_1.index t (0 : Fin 2) * 1 + 1 * 0 = 0; rw [e2]
  | ⟨1, _⟩ => show win5_1.index t (1 : Fin 2) * 64 + 1 * q.val = q.val; rw [e3]; omega

/-- Entry (p, q) of the result block at point t sits at entry (10000·t + p, q) of the result array. -/
theorem result_block_index (t : Fin cfg5.N) (p : Fin 10000) (q : Fin 64) (k : Fin 100000)
    (hk : k.val = 10000 * t.val + p.val) :
    ((cfg5.win 2).blk t).view.emb (ix2 p q) = ix2 k q := by
  obtain ⟨-, -, -, -, e4, e5⟩ := index_facts t
  funext a
  apply Fin.ext
  match a with
  | ⟨0, _⟩ => show win5_2.index t (0 : Fin 2) * 10000 + 1 * p.val = k.val; rw [e4, hk]; omega
  | ⟨1, _⟩ => show win5_2.index t (1 : Fin 2) * 64 + 1 * q.val = q.val; rw [e5]; omega

/-- What point t writes back is block t of the whole-array function: rows 10000·t … 10000·t + 9999 of the input
    plus the bias row. -/
theorem flushed_eq (c : Dev nD) (t : Fin cfg5.N) :
    (dat5 V c).flushed 2 t
      = ((cfg5.win 2).blk t).view.read (Elt Ideal) (GraphConv.plusRow (V c main_v73) (V c main_v74)) := by
  show (cfg5.win 2).cut (grid5.coords t) ((dat5 V c).after 2 t) = _
  rw [after5_2]
  unfold out5_2
  rw [View.canon_unit_zero zero_offsets]
  simp only [View.ld_unit_zero (S := S10000x64) zero_offsets, View.ld_unit_zero (S := S1x64) zero_offsets]
  funext j
  obtain ⟨p, q, rfl⟩ : ∃ (p : Fin 10000) (q : Fin 64), j = ix2 p q := ⟨j 0, j 1, eq_ix2 j⟩
  have hN : cfg5.N = 10 := N_5
  have ht : t.val < 10 := by have := t.isLt; omega
  obtain ⟨k, hk⟩ : ∃ k : Fin 100000, k.val = 10000 * t.val + p.val := ⟨⟨10000 * t.val + p.val, by omega⟩, rfl⟩
  show k5_pay1 (F := Ideal) (iblk5 V c 0 t) (iblk5 V c 1 t) (ix2 p q)
    = GraphConv.plusRow (V c main_v73) (V c main_v74) (((cfg5.win 2).blk t).view.emb (ix2 p q))
  rw [result_block_index t p q k hk, GraphConv.plusRow_apply]
  refine (sum_apply (iblk5 V c 0 t) (iblk5 V c 1 t) p q).trans ?_
  rw [rows_block_apply V c t p q k hk, bias_block_apply V c t q]

/-- An index of the result array is in point t's block iff each coordinate is in the block's range on its axis. -/
theorem mem_block (t : Fin cfg5.N) (i : S100000x64.Idx) :
    i ∈ ((cfg5.win 2).blk t).view.set ↔ ∀ a : Fin 2, win5_2.index t a * S10000x64.size a ≤ (i a).val
      ∧ (i a).val < win5_2.index t a * S10000x64.size a + S10000x64.size a := by
  show i ∈ ((View.whole main_v75).slice (win5_2.rect t)).set ↔ _
  rw [View.set_slice_whole, Rect.mem_set_unit]
  exact Iff.rfl

/-- The ten blocks cover the array: row r lies in block r / 10000, and every point writes its block back. -/
theorem cover (i : S100000x64.Idx) :
    ∃ t : Fin cfg5.N, (cfg5.win 2).flush t = true ∧ i ∈ ((cfg5.win 2).blk t).view.set := by
  have hN : cfg5.N = 10 := N_5
  have hi0 : (i 0).val < 100000 := (i 0).isLt
  have hi1 : (i 1).val < 64 := (i 1).isLt
  obtain ⟨t, ht⟩ : ∃ t : Fin cfg5.N, t.val = (i 0).val / 10000 := ⟨⟨(i 0).val / 10000, by omega⟩, rfl⟩
  obtain ⟨-, -, -, -, e4, e5⟩ := index_facts t
  refine ⟨t, flush5_2 t, ?_⟩
  rw [mem_block]
  intro a
  match a with
  | ⟨0, _⟩ =>
    show win5_2.index t (0 : Fin 2) * 10000 ≤ (i 0).val ∧ (i 0).val < win5_2.index t (0 : Fin 2) * 10000 + 10000
    rw [e4, ht]; omega
  | ⟨1, _⟩ =>
    show win5_2.index t (1 : Fin 2) * 64 ≤ (i 1).val ∧ (i 1).val < win5_2.index t (1 : Fin 2) * 64 + 64
    rw [e5]; omega

/-- So the result array ends holding the input rows plus the bias row. -/
theorem final (c : Dev nD) :
    (dat5 (F := Ideal) V c).arrAt 2 cfg5.N = GraphConv.plusRow (V c main_v73) (V c main_v74) :=
  (dat5 V c).arrAt_eq_of_cover 2 _ (fun t _ => flushed_eq V c t) cover

end Cert.KernelIdeal.Bias5

end
-- ==== Proof.NetworkValue.lean ====
/-
  The kernel program's result array as the three-layer network of its arguments.

  Between the six regions the program computes, with host operations, the edge lists (source and destination node of
  every edge, a self loop appended for every node), the edges' weights, and in every layer the per-node sum of
  messages: the rows of the layer's product gathered at the sources, scaled by the edge weights, scatter-added into
  the destinations' rows of a zero array.  The edge lists and weights are computed once, before the first region,
  and no later host operation or region writes them; the weight matrices and biases are never written at all.  So
  walking the program forwards, each region finds the arrays the previous steps left, and its result is the layer's
  function of them: product, message sum, bias (and clamp), three times.
-/
import proofs.«115759_j38654705664006_1_alg».proof.Proof.Gen.KernelIdeal.Frame
import proofs.«115759_j38654705664006_1_alg».proof.Proof.LayerSpec
import proofs.«115759_j38654705664006_1_alg».proof.Proof.Linear0
import proofs.«115759_j38654705664006_1_alg».proof.Proof.Linear2
import proofs.«115759_j38654705664006_1_alg».proof.Proof.Linear4
import proofs.«115759_j38654705664006_1_alg».proof.Proof.Bias1
import proofs.«115759_j38654705664006_1_alg».proof.Proof.Bias3
import proofs.«115759_j38654705664006_1_alg».proof.Proof.Bias5
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.StableHlo
open Idealize.ShloMosaic.ValueIdx

namespace Cert.KernelIdeal.Net

open Cert.KernelIdeal Cert.KernelIdeal.Gen

section AnyFloats

variable {F : FTy → Type} [FloatOps F]

/-- The per-node sum of scaled messages, from the source list `s`, the destination list `d`, the edge weights `nw`
    and the layer's product `hw`: a negative source index is wrapped by adding the number of nodes, the product's
    rows are gathered at the sources, each scaled by its edge's weight, and scatter-added into the destinations' rows
    of a zero array. -/
def aggK_of (s d : (⟨S1350000, .i32⟩ : BufTy).Contents (Elt F)) (nw : (⟨S1350000x1, .f32⟩ : BufTy).Contents (Elt F))
    (hw : (⟨S100000x64, .f32⟩ : BufTy).Contents (Elt F)) : (⟨S100000x64, .f32⟩ : BufTy).Contents (Elt F) :=
  Host.scatterAdd scatter_S100000x64_S1350000x1_S1350000x64_1_0_0_1
    (broadcastInDim S100000x64 ![] bcast_S_S100000x64 (constant S_ .f32 0x00000000#32))
    (broadcastInDim S1350000x1 ![0] bcast_S1350000_S1350000x1_0 d)
    (mulf (Host.gather gather_S100000x64_S1350000x1_S1350000x64_1_0_n_n_0_1_164 hw
        (broadcastInDim S1350000x1 ![0] bcast_S1350000_S1350000x1_0
          (select (cmpi .slt s (broadcastInDim S1350000 ![] bcast_S_S1350000 (constantI S_ 32 0#32)))
            (addi s (broadcastInDim S1350000 ![] bcast_S_S1350000 (constantI S_ 32 100000#32))) s)))
      (broadcastInDim S1350000x64 ![0, 1] bcast_S1350000x1_S1350000x64_0_1 nw))

/-! ## The host stretch before each bias region: the message sum and the bias laid out as a row -/

theorem sum1 (W : Valuation τ sig (Elt F)) :
    StableHlo.after hostOps1 W (Proc.devRef .tc main_v43)
      = aggK_of (W (Proc.devRef .tc main_v3)) (W (Proc.devRef .tc main_v6)) (W (Proc.devRef .tc main_v30)) (W (Proc.devRef .tc main_v31)) := by
  after_results_simp
  rfl
theorem row1 (W : Valuation τ sig (Elt F)) :
    StableHlo.after hostOps1 W (Proc.devRef .tc main_v44) = shapeCast _ (W (Proc.devRef .tc main_arg3)) shapeCasts_S64_S1x64 := by
  after_results
  rfl
theorem sum3 (W : Valuation τ sig (Elt F)) :
    StableHlo.after hostOps3 W (Proc.devRef .tc main_v58)
      = aggK_of (W (Proc.devRef .tc main_v3)) (W (Proc.devRef .tc main_v6)) (W (Proc.devRef .tc main_v30)) (W (Proc.devRef .tc main_v46)) := by
  after_results_simp
  rfl
theorem row3 (W : Valuation τ sig (Elt F)) :
    StableHlo.after hostOps3 W (Proc.devRef .tc main_v59) = shapeCast _ (W (Proc.devRef .tc main_arg5)) shapeCasts_S64_S1x64 := by
  after_results
  rfl
theorem sum5 (W : Valuation τ sig (Elt F)) :
    StableHlo.after hostOps5 W (Proc.devRef .tc main_v73)
      = aggK_of (W (Proc.devRef .tc main_v3)) (W (Proc.devRef .tc main_v6)) (W (Proc.devRef .tc main_v30)) (W (Proc.devRef .tc main_v61)) := by
  after_results_simp
  rfl
theorem row5 (W : Valuation τ sig (Elt F)) :
    StableHlo.after hostOps5 W (Proc.devRef .tc main_v74) = shapeCast _ (W (Proc.devRef .tc main_arg7)) shapeCasts_S64_S1x64 := by
  after_results
  rfl

/-! ## What those stretches leave alone: the edge lists and weights, and the later layers' arguments -/

theorem keep1_v3 (W : Valuation τ sig (Elt F)) : StableHlo.after hostOps1 W (Proc.devRef .tc main_v3) = W (Proc.devRef .tc main_v3) := by after_results
theorem keep1_v6 (W : Valuation τ sig (Elt F)) : StableHlo.after hostOps1 W (Proc.devRef .tc main_v6) = W (Proc.devRef .tc main_v6) := by after_results
theorem keep1_v30 (W : Valuation τ sig (Elt F)) : StableHlo.after hostOps1 W (Proc.devRef .tc main_v30) = W (Proc.devRef .tc main_v30) := by after_results
theorem keep1_arg4 (W : Valuation τ sig (Elt F)) : StableHlo.after hostOps1 W (Proc.devRef .tc main_arg4) = W (Proc.devRef .tc main_arg4) := by after_results
theorem keep1_arg5 (W : Valuation τ sig (Elt F)) : StableHlo.after hostOps1 W (Proc.devRef .tc main_arg5) = W (Proc.devRef .tc main_arg5) := by after_results
theorem keep1_arg6 (W : Valuation τ sig (Elt F)) : StableHlo.after hostOps1 W (Proc.devRef .tc main_arg6) = W (Proc.devRef .tc main_arg6) := by after_results
theorem keep1_arg7 (W : Valuation τ sig (Elt F)) : StableHlo.after hostOps1 W (Proc.devRef .tc main_arg7) = W (Proc.devRef .tc main_arg7) := by after_results
theorem keep3_v3 (W : Valuation τ sig (Elt F)) : StableHlo.after hostOps3 W (Proc.devRef .tc main_v3) = W (Proc.devRef .tc main_v3) := by after_results
theorem keep3_v6 (W : Valuation τ sig (Elt F)) : StableHlo.after hostOps3 W (Proc.devRef .tc main_v6) = W (Proc.devRef .tc main_v6) := by after_results
theorem keep3_v30 (W : Valuation τ sig (Elt F)) : StableHlo.after hostOps3 W (Proc.devRef .tc main_v30) = W (Proc.devRef .tc main_v30) := by after_results
theorem keep3_arg6 (W : Valuation τ sig (Elt F)) : StableHlo.after hostOps3 W (Proc.devRef .tc main_arg6) = W (Proc.devRef .tc main_arg6) := by after_results
theorem keep3_arg7 (W : Valuation τ sig (Elt F)) : StableHlo.after hostOps3 W (Proc.devRef .tc main_arg7) = W (Proc.devRef .tc main_arg7) := by after_results

end AnyFloats

variable (m : (ℓ : Loc nD τ sig) → Buf (Elt Ideal) ℓ) (ρ : Dev nD → PrngReg)

/-! ## The arguments when the first region is entered: as launched (no host operation before it writes one) -/

theorem arg0_at3 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results
theorem arg2_at3 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results
theorem arg3_at3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results
theorem arg4_at3 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results
theorem arg5_at3 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results
theorem arg6_at3 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results
theorem arg7_at3 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results

/-! ## A buffer that no region has among its arrays and no later host stretch writes keeps, at every later boundary,
    what it held when the first region was entered -/

theorem at4 (b : Ref sig .tc) (h0 : ∀ w, Pipeline.arrRef spec0 w ≠ b) (c : Dev nD) :
    W4 m ρ c (Proc.devRef .tc b) = W3 m ρ c (Proc.devRef .tc b) := W4_of_ne m ρ c b h0

theorem at6 (b : Ref sig .tc) (h0 : ∀ w, Pipeline.arrRef spec0 w ≠ b) (h1 : ∀ w, Pipeline.arrRef spec1 w ≠ b)
    (k1 : ∀ W : Valuation τ sig (Elt Ideal), StableHlo.after hostOps1 W (Proc.devRef .tc b) = W (Proc.devRef .tc b)) (c : Dev nD) :
    W6 m ρ c (Proc.devRef .tc b) = W3 m ρ c (Proc.devRef .tc b) :=
  (W6_of_ne m ρ c b h1).trans ((k1 (W4 m ρ c)).trans (at4 m ρ b h0 c))

theorem at7 (b : Ref sig .tc) (h0 : ∀ w, Pipeline.arrRef spec0 w ≠ b) (h1 : ∀ w, Pipeline.arrRef spec1 w ≠ b)
    (h2 : ∀ w, Pipeline.arrRef spec2 w ≠ b)
    (k1 : ∀ W : Valuation τ sig (Elt Ideal), StableHlo.after hostOps1 W (Proc.devRef .tc b) = W (Proc.devRef .tc b)) (c : Dev nD) :
    W7 m ρ c (Proc.devRef .tc b) = W3 m ρ c (Proc.devRef .tc b) :=
  (W7_of_ne m ρ c b h2).trans (at6 m ρ b h0 h1 k1 c)

theorem at9 (b : Ref sig .tc) (h0 : ∀ w, Pipeline.arrRef spec0 w ≠ b) (h1 : ∀ w, Pipeline.arrRef spec1 w ≠ b)
    (h2 : ∀ w, Pipeline.arrRef spec2 w ≠ b) (h3 : ∀ w, Pipeline.arrRef spec3 w ≠ b)
    (k1 : ∀ W : Valuation τ sig (Elt Ideal), StableHlo.after hostOps1 W (Proc.devRef .tc b) = W (Proc.devRef .tc b))
    (k3 : ∀ W : Valuation τ sig (Elt Ideal), StableHlo.after hostOps3 W (Proc.devRef .tc b) = W (Proc.devRef .tc b)) (c : Dev nD) :
    W9 m ρ c (Proc.devRef .tc b) = W3 m ρ c (Proc.devRef .tc b) :=
  (W9_of_ne m ρ c b h3).trans ((k3 (W7 m ρ c)).trans (at7 m ρ b h0 h1 h2 k1 c))

theorem at10 (b : Ref sig .tc) (h0 : ∀ w, Pipeline.arrRef spec0 w ≠ b) (h1 : ∀ w, Pipeline.arrRef spec1 w ≠ b)
    (h2 : ∀ w, Pipeline.arrRef spec2 w ≠ b) (h3 : ∀ w, Pipeline.arrRef spec3 w ≠ b) (h4 : ∀ w, Pipeline.arrRef spec4 w ≠ b)
    (k1 : ∀ W : Valuation τ sig (Elt Ideal), StableHlo.after hostOps1 W (Proc.devRef .tc b) = W (Proc.devRef .tc b))
    (k3 : ∀ W : Valuation τ sig (Elt Ideal), StableHlo.after hostOps3 W (Proc.devRef .tc b) = W (Proc.devRef .tc b)) (c : Dev nD) :
    W10 m ρ c (Proc.devRef .tc b) = W3 m ρ c (Proc.devRef .tc b) :=
  (W10_of_ne m ρ c b h4).trans (at9 m ρ b h0 h1 h2 h3 k1 k3 c)

/-! ## The bias, reshaped by the program from 64 numbers to one row, is the row of the specification -/

theorem row_eq (b : (⟨S64, .f32⟩ : BufTy).Contents (Elt Ideal)) :
    (shapeCast S1x64 b shapeCasts_S64_S1x64 : S1x64.Idx → Elt Ideal .f32) = GraphConv.asRow b := by
  funext j
  refine shapeCast_apply b shapeCasts_S64_S1x64 j (ix1 (j 1)) ?_
  rw [Shape.rowMajor_val_one, Shape.rowMajor_val_two]
  have h0 : (j 0).val < 1 := (j 0).isLt
  show (j 1).val = (j 0).val * 64 + (j 1).val
  omega

/-! ## The walk -/

/-- The edge lists and weights as the host operations before the first region leave them. -/
abbrev src (c : Dev nD) : (⟨S1350000, .i32⟩ : BufTy).Contents (Elt Ideal) := W3 m ρ c (Proc.devRef .tc main_v3)
abbrev dst (c : Dev nD) : (⟨S1350000, .i32⟩ : BufTy).Contents (Elt Ideal) := W3 m ρ c (Proc.devRef .tc main_v6)
abbrev wgt (c : Dev nD) : (⟨S1350000x1, .f32⟩ : BufTy).Contents (Elt Ideal) := W3 m ρ c (Proc.devRef .tc main_v30)
/-- The message sum over them. -/
abbrev agg (c : Dev nD) : (GraphConv.Nodes.Idx → EReal) → (GraphConv.Nodes.Idx → EReal) :=
  aggK_of (F := Ideal) (src m ρ c) (dst m ρ c) (wgt m ρ c)

/-- After region 0: the first layer's product. -/
theorem product1 (c : Dev nD) :
    W4 m ρ c (Proc.devRef .tc main_v31)
      = GraphConv.rowsTimes (m ((c : Thread nD τ).loc main_arg0)) (m ((c : Thread nD τ).loc main_arg2)) := by
  refine (W4_arr m ρ c 2).trans ((Linear0.final (V3 m ρ) c).trans ?_)
  show GraphConv.rowsTimes (W3 m ρ c (Proc.devRef .tc main_arg0)) (W3 m ρ c (Proc.devRef .tc main_arg2)) = _
  rw [arg0_at3, arg2_at3]

/-- Layer 1's output of the launch arguments. -/
abbrev out1 (c : Dev nD) : GraphConv.Nodes.Idx → EReal :=
  GraphConv.plusRowClamped (agg m ρ c (GraphConv.rowsTimes (m ((c : Thread nD τ).loc main_arg0)) (m ((c : Thread nD τ).loc main_arg2))))
    (GraphConv.asRow (m ((c : Thread nD τ).loc main_arg3)))
/-- Layer 2's. -/
abbrev out2 (c : Dev nD) : GraphConv.Nodes.Idx → EReal :=
  GraphConv.plusRowClamped (agg m ρ c (GraphConv.rowsTimes (out1 m ρ c) (m ((c : Thread nD τ).loc main_arg4))))
    (GraphConv.asRow (m ((c : Thread nD τ).loc main_arg5)))

/-- After region 1: the message sum of the first product, plus the first bias, clamped. -/
theorem layer1 (c : Dev nD) : W6 m ρ c (Proc.devRef .tc main_v45) = out1 m ρ c := by
  refine (W6_arr m ρ c 2).trans ((Bias1.final (V5 m ρ) c).trans ?_)
  show GraphConv.plusRowClamped (StableHlo.after hostOps1 (W4 m ρ c) (Proc.devRef .tc main_v43))
    (StableHlo.after hostOps1 (W4 m ρ c) (Proc.devRef .tc main_v44)) = _
  rw [sum1, row1, at4 m ρ main_v3 (by decide) c, at4 m ρ main_v6 (by decide) c, at4 m ρ main_v30 (by decide) c,
    product1, at4 m ρ main_arg3 (by decide) c, arg3_at3, row_eq]

/-- After region 2: the second layer's product. -/
theorem product2 (c : Dev nD) :
    W7 m ρ c (Proc.devRef .tc main_v46) = GraphConv.rowsTimes (out1 m ρ c) (m ((c : Thread nD τ).loc main_arg4)) := by
  refine (W7_arr m ρ c 2).trans ((Linear2.final (V6 m ρ) c).trans ?_)
  show GraphConv.rowsTimes (W6 m ρ c (Proc.devRef .tc main_v45)) (W6 m ρ c (Proc.devRef .tc main_arg4)) = _
  rw [layer1, at6 m ρ main_arg4 (by decide) (by decide) keep1_arg4 c, arg4_at3]

/-- After region 3: layer 2's output. -/
theorem layer2 (c : Dev nD) : W9 m ρ c (Proc.devRef .tc main_v60) = out2 m ρ c := by
  refine (W9_arr m ρ c 2).trans ((Bias3.final (V8 m ρ) c).trans ?_)
  show GraphConv.plusRowClamped (StableHlo.after hostOps3 (W7 m ρ c) (Proc.devRef .tc main_v58))
    (StableHlo.after hostOps3 (W7 m ρ c) (Proc.devRef .tc main_v59)) = _
  rw [sum3, row3, at7 m ρ main_v3 (by decide) (by decide) (by decide) keep1_v3 c,
    at7 m ρ main_v6 (by decide) (by decide) (by decide) keep1_v6 c,
    at7 m ρ main_v30 (by decide) (by decide) (by decide) keep1_v30 c,
    product2, at7 m ρ main_arg5 (by decide) (by decide) (by decide) keep1_arg5 c, arg5_at3, row_eq]

/-- After region 4: the third layer's product. -/
theorem product3 (c : Dev nD) :
    W10 m ρ c (Proc.devRef .tc main_v61) = GraphConv.rowsTimes (out2 m ρ c) (m ((c : Thread nD τ).loc main_arg6)) := by
  refine (W10_arr m ρ c 2).trans ((Linear4.final (V9 m ρ) c).trans ?_)
  show GraphConv.rowsTimes (W9 m ρ c (Proc.devRef .tc main_v60)) (W9 m ρ c (Proc.devRef .tc main_arg6)) = _
  rw [layer2, at9 m ρ main_arg6 (by decide) (by decide) (by decide) (by decide) keep1_arg6 keep3_arg6 c, arg6_at3]

/-- After region 5, the last: the result array holds the three-layer network of the launch arguments, the message
    sum taken over the edge lists and weights computed before the first region. -/
theorem result_eq (c : Dev nD) :
    W12 m ρ c (Proc.devRef .tc main_v75)
      = GraphConv.network (agg m ρ c) (m ((c : Thread nD τ).loc main_arg0)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (W12_arr m ρ c 2).trans ((Bias5.final (V11 m ρ) c).trans ?_)
  show GraphConv.plusRow (StableHlo.after hostOps5 (W10 m ρ c) (Proc.devRef .tc main_v73))
    (StableHlo.after hostOps5 (W10 m ρ c) (Proc.devRef .tc main_v74)) = _
  rw [sum5, row5, at10 m ρ main_v3 (by decide) (by decide) (by decide) (by decide) (by decide) keep1_v3 keep3_v3 c,
    at10 m ρ main_v6 (by decide) (by decide) (by decide) (by decide) (by decide) keep1_v6 keep3_v6 c,
    at10 m ρ main_v30 (by decide) (by decide) (by decide) (by decide) (by decide) keep1_v30 keep3_v30 c,
    product3, at10 m ρ main_arg7 (by decide) (by decide) (by decide) (by decide) (by decide) keep1_arg7 keep3_arg7 c, arg7_at3, row_eq]
  rfl

end Cert.KernelIdeal.Net

end
-- ==== Proof.RefLayers.lean ====
/-
  The reference's result, stage by stage, is the three-layer network.

  Each of the reference's three layers is the same chain of whole-array operations: a matrix product of the node
  features (100000 rows of 64) with a 64 × 64 weight matrix; a gather of the product's rows at the edges' source
  nodes, each gathered row scaled by its edge's weight, and a scatter-add of the scaled rows into the edges'
  destination rows of a zero array (the per-node sum of messages, `aggR`); the bias, laid out as a row and repeated
  over all rows, added; and, in the first two layers, the maximum with a zero array.

  Three facts join the stages to the layer functions of the specification: the host's matrix product at the extended
  reals is the plain sum over k < 64 of x(p, k) · w(k, q); the repeated bias row read at (p, q) is the bias at q; the
  zero word is the number 0, so the maximum with the zero array is the clamp at zero from below.  The three layers
  compute their edge data (wrapped source indices, repeated edge weights, destination indices, the zero array) by
  separate operations with equal bodies, so the three per-node sums are one function of the edge list.
-/
import proofs.«115759_j38654705664006_1_alg».proof.Proof.RefRead
import proofs.«115759_j38654705664006_1_alg».proof.Proof.LibPlainDot
import proofs.«115759_j38654705664006_1_alg».proof.Proof.LayerSpec
import Idealize.ShloMosaic.Lib.ValueIdx
import Idealize.ShloMosaic.PureOps.Ideal.Laws

noncomputable section

namespace Cert.ReferenceIdeal.Layers

open Cert.ReferenceIdeal Cert.ReferenceIdeal.ReadP
open Idealize.ShloMosaic Idealize.ShloMosaic.ValueIdx

/-! ## The three layers' edge data are the same arrays -/

section EdgeData
variable {F : FTy → Type} [FloatOps F]

/-- The second layer's wrapped source indices are the first layer's: a negative index has the node count added. -/
theorem sources2 (e : (⟨S2x1250000, .i32⟩ : BufTy).Contents (Elt F)) : val_main_v54 (F := F) e = val_main_v37 (F := F) e := by
  unfold val_main_v54 val_main_v53 val_main_v50 val_main_v52 val_main_v49 val_main_v51 val_main_c_9 val_main_c_10
    val_main_v37 val_main_v36 val_main_v33 val_main_v35 val_main_v32 val_main_v34 val_main_c_6 val_main_c_7
  rfl

/-- The third layer's wrapped source indices are the first layer's. -/
theorem sources3 (e : (⟨S2x1250000, .i32⟩ : BufTy).Contents (Elt F)) : val_main_v71 (F := F) e = val_main_v37 (F := F) e := by
  unfold val_main_v71 val_main_v70 val_main_v67 val_main_v69 val_main_v66 val_main_v68 val_main_c_12 val_main_c_13
    val_main_v37 val_main_v36 val_main_v33 val_main_v35 val_main_v32 val_main_v34 val_main_c_6 val_main_c_7
  rfl

/-- The second layer's edge weights, repeated along each row of 64, are the first layer's. -/
theorem weights2 (e : (⟨S2x1250000, .i32⟩ : BufTy).Contents (Elt F)) : val_main_v56 (F := F) e = val_main_v39 (F := F) e := by
  unfold val_main_v56 val_main_v39
  rfl

/-- The third layer's repeated edge weights are the first layer's. -/
theorem weights3 (e : (⟨S2x1250000, .i32⟩ : BufTy).Contents (Elt F)) : val_main_v73 (F := F) e = val_main_v39 (F := F) e := by
  unfold val_main_v73 val_main_v39
  rfl

/-- The second layer's destination indices are the first layer's. -/
theorem dests2 (e : (⟨S2x1250000, .i32⟩ : BufTy).Contents (Elt F)) : val_main_v59 (F := F) e = val_main_v42 (F := F) e := by
  unfold val_main_v59 val_main_v42
  rfl

/-- The third layer's destination indices are the first layer's. -/
theorem dests3 (e : (⟨S2x1250000, .i32⟩ : BufTy).Contents (Elt F)) : val_main_v76 (F := F) e = val_main_v42 (F := F) e := by
  unfold val_main_v76 val_main_v42
  rfl

/-- The second layer's zero array is the first layer's. -/
theorem zeros2 : val_main_v58 (F := F) = val_main_v41 (F := F) := by
  unfold val_main_v58 val_main_cst_11 val_main_v41 val_main_cst_8
  rfl

/-- The third layer's zero array is the first layer's. -/
theorem zeros3 : val_main_v75 (F := F) = val_main_v41 (F := F) := by
  unfold val_main_v75 val_main_cst_14 val_main_v41 val_main_cst_8
  rfl

/-- The second layer's bias, as a row repeated over all rows, is the first layer's operation on another bias. -/
theorem biasRows2 (b : (⟨S64, .f32⟩ : BufTy).Contents (Elt F)) : val_main_v62 (F := F) b = val_main_v45 (F := F) b := by
  unfold val_main_v62 val_main_v61 val_main_v45 val_main_v44
  rfl

/-- The third layer's repeated bias row likewise. -/
theorem biasRows3 (b : (⟨S64, .f32⟩ : BufTy).Contents (Elt F)) : val_main_v79 (F := F) b = val_main_v45 (F := F) b := by
  unfold val_main_v79 val_main_v78 val_main_v45 val_main_v44
  rfl

/-- The second clamp's zero array is the first clamp's. -/
theorem clampZeros2 : val_main_call2_v0 (F := F) = val_main_call1_v0 (F := F) := by
  unfold val_main_call2_v0 val_main_call2_cst val_main_call1_v0 val_main_call1_cst
  rfl

end EdgeData

/-! ## The per-node sum of messages -/

/-- The per-node sum of scaled messages: gather the rows of hw at the wrapped source indices, scale each by its edge weight, scatter-add into the destination rows of a zero array. -/
def aggR (e : (⟨S2x1250000, .i32⟩ : BufTy).Contents (Elt Ideal)) (hw : (⟨S100000x64, .f32⟩ : BufTy).Contents (Elt Ideal)) : (⟨S100000x64, .f32⟩ : BufTy).Contents (Elt Ideal) :=
  Host.scatterAdd (F := Ideal) (φ := .f32) scatter_S100000x64_S1350000x1_S1350000x64_1_0_0_1 (val_main_v41 (F := Ideal)) (val_main_v42 (F := Ideal) e)
    (mulf (F := Ideal) (φ := .f32) (Host.gather gather_S100000x64_S1350000x1_S1350000x64_1_0_n_n_0_1_164 hw (val_main_v37 (F := Ideal) e)) (val_main_v39 (F := Ideal) e))

/-! ## The three stage facts, index by index -/

/-- The host's matrix product at the extended reals: entry (p, q) is the sum over k of h(p, k) · w(k, q). -/
theorem product_eq (h : (⟨S100000x64, .f32⟩ : BufTy).Contents (Elt Ideal)) (w : (⟨S64x64, .f32⟩ : BufTy).Contents (Elt Ideal)) :
    Host.dotGeneral (F := Ideal) (φ₁ := .f32) (φ₂ := .f32) dot_S100000x64_S64x64_S100000x64_1_0_0_1_n_n none h w = GraphConv.rowsTimes h w := by
  funext i
  obtain ⟨p, q, rfl⟩ : ∃ (p : Fin 100000) (q : Fin 64), i = ix2 p q := ⟨i 0, i 1, eq_ix2 i⟩
  simp only [Host.dotGeneral]
  rw [Ideal.dotGeneral_apply, GraphConv.rowsTimes_apply]
  exact PlainDot.sum_eq (M := EReal) dot_S100000x64_S64x64_S100000x64_1_0_0_1_n_n rfl rfl rfl rfl rfl rfl h w p q

/-- The bias row repeated over all rows reads the bias at the column. -/
theorem biasRows_apply (b : (⟨S64, .f32⟩ : BufTy).Contents (Elt Ideal)) (p : Fin 100000) (q : Fin 64) :
    val_main_v45 (F := Ideal) b (ix2 p q) = b (ix1 q) := by
  rw [val_main_v45_apply, val_main_v44_apply]
  exact congrArg b (funext fun d => Fin.ext (by match d with | ⟨0, _⟩ => rfl))

/-- Adding the repeated bias row and taking the maximum with the zero array is the clamped layer step. -/
theorem clamped_eq (a : (⟨S100000x64, .f32⟩ : BufTy).Contents (Elt Ideal)) (b : (⟨S64, .f32⟩ : BufTy).Contents (Elt Ideal)) :
    maximumf (F := Ideal) (s := S100000x64) (φ := .f32) (addf (F := Ideal) (s := S100000x64) (φ := .f32) a (val_main_v45 (F := Ideal) b)) (val_main_call1_v0 (F := Ideal)) = GraphConv.plusRowClamped a (GraphConv.asRow b) := by
  funext i
  obtain ⟨p, q, rfl⟩ : ∃ (p : Fin 100000) (q : Fin 64), i = ix2 p q := ⟨i 0, i 1, eq_ix2 i⟩
  rw [GraphConv.plusRowClamped_apply, GraphConv.asRow_apply, maximumf_apply, addf_apply, biasRows_apply,
    val_main_call1_v0_apply, val_main_call1_cst_apply]
  show max _ (Ideal.ofBits .f32 0x00000000#32) = _
  rw [Ideal.ofBits_zero_f32]

/-- Adding the repeated bias row is the last layer's step. -/
theorem plus_eq (a : (⟨S100000x64, .f32⟩ : BufTy).Contents (Elt Ideal)) (b : (⟨S64, .f32⟩ : BufTy).Contents (Elt Ideal)) :
    addf (F := Ideal) (s := S100000x64) (φ := .f32) a (val_main_v45 (F := Ideal) b) = GraphConv.plusRow a (GraphConv.asRow b) := by
  funext i
  obtain ⟨p, q, rfl⟩ : ∃ (p : Fin 100000) (q : Fin 64), i = ix2 p q := ⟨i 0, i 1, eq_ix2 i⟩
  rw [GraphConv.plusRow_apply, GraphConv.asRow_apply, addf_apply, biasRows_apply]

/-! ## The stages, one layer at a time -/

section Stages
variable (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal))

theorem product1 : val_main_v31 (F := Ideal) x0 x2 = GraphConv.rowsTimes x0 x2 := by
  unfold val_main_v31
  exact product_eq x0 x2

theorem messages1 : val_main_v43 (F := Ideal) x0 x1 x2 = aggR x1 (val_main_v31 (F := Ideal) x0 x2) := by
  unfold val_main_v43 val_main_v40 val_main_v38 aggR
  rfl

theorem clamped1 : val_main_v47 (F := Ideal) x0 x1 x2 x3
    = GraphConv.plusRowClamped (val_main_v43 (F := Ideal) x0 x1 x2) (GraphConv.asRow x3) := by
  unfold val_main_v47 val_main_v46
  exact clamped_eq _ x3

theorem product2 : val_main_v48 (F := Ideal) x0 x1 x2 x3 x4
    = GraphConv.rowsTimes (val_main_v47 (F := Ideal) x0 x1 x2 x3) x4 := by
  unfold val_main_v48
  exact product_eq _ x4

theorem messages2 : val_main_v60 (F := Ideal) x0 x1 x2 x3 x4 = aggR x1 (val_main_v48 (F := Ideal) x0 x1 x2 x3 x4) := by
  unfold val_main_v60 val_main_v57 val_main_v55 aggR
  rw [zeros2, dests2, sources2, weights2]

theorem clamped2 : val_main_v64 (F := Ideal) x0 x1 x2 x3 x4 x5
    = GraphConv.plusRowClamped (val_main_v60 (F := Ideal) x0 x1 x2 x3 x4) (GraphConv.asRow x5) := by
  unfold val_main_v64 val_main_v63
  rw [biasRows2, clampZeros2]
  exact clamped_eq _ x5

theorem product3 : val_main_v65 (F := Ideal) x0 x1 x2 x3 x4 x5 x6
    = GraphConv.rowsTimes (val_main_v64 (F := Ideal) x0 x1 x2 x3 x4 x5) x6 := by
  unfold val_main_v65
  exact product_eq _ x6

theorem messages3 : val_main_v77 (F := Ideal) x0 x1 x2 x3 x4 x5 x6
    = aggR x1 (val_main_v65 (F := Ideal) x0 x1 x2 x3 x4 x5 x6) := by
  unfold val_main_v77 val_main_v74 val_main_v72 aggR
  rw [zeros3, dests3, sources3, weights3]

theorem plus3 : val_main_v80 (F := Ideal) x0 x1 x2 x3 x4 x5 x6 x7
    = GraphConv.plusRow (val_main_v77 (F := Ideal) x0 x1 x2 x3 x4 x5 x6) (GraphConv.asRow x7) := by
  unfold val_main_v80
  rw [biasRows3]
  exact plus_eq _ x7

end Stages

/-- The reference's result is the three-layer network over the per-node sum of messages. -/
theorem result_eq (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) :
    val_main_v80 (F := Ideal) x0 x1 x2 x3 x4 x5 x6 x7 = GraphConv.network (aggR x1) x0 x2 x3 x4 x5 x6 x7 := by
  rw [plus3, messages3, product3, clamped2, messages2, product2, clamped1, messages1, product1]
  rfl

end Cert.ReferenceIdeal.Layers

end
-- ==== Proof.EdgeData.lean ====
/-
  The two programs compute the edge lists, the edge weights and the per-node message sum with the same host
  operations on the same argument (the edge index array): the kernel program's, read off the buffers as the host
  operations before its first region leave them, are the reference's stage functions of that argument.
-/
import proofs.«115759_j38654705664006_1_alg».proof.Proof.Gen.KernelIdeal.Frame
import proofs.«115759_j38654705664006_1_alg».proof.Proof.NetworkValue
import proofs.«115759_j38654705664006_1_alg».proof.Proof.RefLayers
import Idealize.ShloMosaic.Lib.StableHlo.Run

set_option maxRecDepth 16384

noncomputable section

open Idealize.ShloMosaic Idealize.ShloMosaic.TcCoe Idealize.SL.Sem Idealize.ShloMosaic.StableHlo

namespace Cert.Proof.Edges

open Cert.KernelIdeal Cert.KernelIdeal.Gen

section AnyFloats

variable {F : FTy → Type} [FloatOps F]
variable (m : (ℓ : Loc nD τ sig) → Buf (Elt F) ℓ) (ρ : Dev nD → PrngReg)

/-- The source list: the first row of the edge index array, then every node once. -/
theorem src_eq (c : Dev nD) :
    W3 m ρ c (Proc.devRef .tc main_v3) = Cert.ReferenceIdeal.ReadP.val_main_v3 (F := F) (m ((c : Thread nD τ).loc main_arg1)) := by
  show StableHlo.after hostOps0_2 (StableHlo.after hostOps0_1 (StableHlo.after hostOps0 (W0 m ρ c))) (Proc.devRef .tc main_v3) = _
  after_results
  rfl

/-- The destination list: the second row of the edge index array, then every node once. -/
theorem dst_eq (c : Dev nD) :
    W3 m ρ c (Proc.devRef .tc main_v6) = Cert.ReferenceIdeal.ReadP.val_main_v6 (F := F) (m ((c : Thread nD τ).loc main_arg1)) := by
  show StableHlo.after hostOps0_2 (StableHlo.after hostOps0_1 (StableHlo.after hostOps0 (W0 m ρ c))) (Proc.devRef .tc main_v6) = _
  after_results
  rfl

/-- The edge weights: the product of the two end nodes' inverse square-root degrees. -/
theorem wgt_eq (c : Dev nD) :
    W3 m ρ c (Proc.devRef .tc main_v30) = Cert.ReferenceIdeal.ReadP.val_main_v30 (F := F) (m ((c : Thread nD τ).loc main_arg1)) := by
  show StableHlo.after hostOps0_2 (StableHlo.after hostOps0_1 (StableHlo.after hostOps0 (W0 m ρ c))) (Proc.devRef .tc main_v30) = _
  after_results_simp
  rfl

end AnyFloats

/-- The message sum over the reference's edge data is the reference's. -/
theorem agg_stage (e : (⟨Cert.ReferenceIdeal.S2x1250000, .i32⟩ : BufTy).Contents (Elt Ideal))
    (hw : (⟨Cert.ReferenceIdeal.S100000x64, .f32⟩ : BufTy).Contents (Elt Ideal)) :
    Cert.KernelIdeal.Net.aggK_of (F := Ideal) (Cert.ReferenceIdeal.ReadP.val_main_v3 (F := Ideal) e)
        (Cert.ReferenceIdeal.ReadP.val_main_v6 (F := Ideal) e) (Cert.ReferenceIdeal.ReadP.val_main_v30 (F := Ideal) e) hw
      = Cert.ReferenceIdeal.Layers.aggR e hw := by
  rfl

variable (m : (ℓ : Loc nD τ sig) → Buf (Elt Ideal) ℓ) (ρ : Dev nD → PrngReg)

/-- So the kernel program's message sum is the reference's, of the same edge index array. -/
theorem agg_eq (c : Dev nD) :
    Cert.KernelIdeal.Net.agg m ρ c = Cert.ReferenceIdeal.Layers.aggR (m ((c : Thread nD τ).loc main_arg1)) := by
  funext hw
  show Cert.KernelIdeal.Net.aggK_of (F := Ideal) (W3 m ρ c (Proc.devRef .tc main_v3)) (W3 m ρ c (Proc.devRef .tc main_v6))
    (W3 m ρ c (Proc.devRef .tc main_v30)) hw = _
  rw [src_eq, dst_eq, wgt_eq]
  exact agg_stage _ hw

end Cert.Proof.Edges

end
-- ==== Proof.lean ====
/-
  A three-layer graph convolution: the kernel program against its reference, over the extended reals.

  Each layer multiplies the node features by a 64 × 64 weight matrix, sums the scaled messages per destination
  node, adds a bias and (but for the last layer) clamps at zero.  The kernel program does the product and the
  bias-and-clamp steps in row blocks of 10000 (its operands pass through a change of float format, the identity on
  the extended reals, and the product accumulates from zero), and everything about the edges — the source and
  destination lists with self loops appended, the edge weights, the gather, the scaling and the scatter-add — with
  the same host operations as the reference.  So both results are one function of the arguments: `GraphConv.network`
  over the message sum of the shared edge data.  The blocked product is the whole product because entry (p, q) is
  the sum over k of x(p, k) · w(k, q) whichever block row p falls in, and the blocks cover the rows; the same for the
  bias step.  No law of the extended reals beyond 0 + s = s is used, so the precondition is never opened.

  The frames of the two kernel programs are the generated ones; the reference's is its run with the result dropped.
  The idealization rewrote nothing, so there is nothing to preserve.
-/
import proofs.«115759_j38654705664006_1_alg».proof.Defs
import proofs.«115759_j38654705664006_1_alg».proof.Proof.Gen.Kernel
import proofs.«115759_j38654705664006_1_alg».proof.Proof.Gen.Kernel.Frame
import proofs.«115759_j38654705664006_1_alg».proof.Proof.Gen.KernelIdeal
import proofs.«115759_j38654705664006_1_alg».proof.Proof.Gen.KernelIdeal.Frame
import proofs.«115759_j38654705664006_1_alg».proof.Proof.Gen.ReferenceIdeal
import proofs.«115759_j38654705664006_1_alg».proof.Proof.Gen.Pre_finite_inputs
import proofs.«115759_j38654705664006_1_alg».proof.Proof.ResultRun
import proofs.«115759_j38654705664006_1_alg».proof.Proof.NetworkValue
import proofs.«115759_j38654705664006_1_alg».proof.Proof.RefLayers
import proofs.«115759_j38654705664006_1_alg».proof.Proof.EdgeData
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the result array at the three-layer network of the arguments, over one message sum. -/
theorem algebraic : Cert.algebraic_KernelIdeal_ReferenceIdeal := by
  intro m ρ m' ρ' _ hagree
  refine ⟨fun c => GraphConv.network (Cert.KernelIdeal.Net.agg m ρ c)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Net.result_eq m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v80_eq, Cert.ReferenceIdeal.Layers.result_eq]
    obtain ⟨a0, a1, a2, a3, a4, a5, a6, a7⟩ := hagree c
    rw [a0, a1, a2, a3, a4, a5, a6, a7, ← Cert.Proof.Edges.agg_eq m ρ c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
